-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S9x300 : S_.BroadcastsInDim S9x300 (![] : Fin 0 → Fin S9x300.rank)
  reducesTo_S9x300_S_d0_1 : S9x300.ReducesTo [0, 1] S_
  bcast_S_S9 : S_.BroadcastsInDim S9 (![] : Fin 0 → Fin S9.rank)
  reducesTo_S9_S_d0 : S9.ReducesTo [0] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S300x10 1) : IVec S_ 1 :=
  let main_c_5 : IVec S_ 1 := constantI S_ 1 1#1
  let main_v17 : IVec S_ 1 := (fun x v => Host.reduce IntOp.andi x v reducesTo_S300x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : IVec S128x2048 32) (main_arg1 : FVec F S50000x300 .f32) (main_arg2 : FVec F S9x300 .f32) (main_arg3 : FVec F S9 .f32) (main_arg4 : FVec F S300x10 .f32) (main_arg5 : FVec F S10 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S9x300 .f32 := Host.absf main_arg2
  let main_cst_0 : FVec F S_ .f32 := constant S_ .f32 0x7F800000#32
  let main_v5 : FVec F S9x300 .f32 := broadcastInDim S9x300 ![] bcast_S_S9x300 main_cst_0
  let main_v6 : IVec S9x300 1 := cmpf .olt main_v4 main_v5
  let main_c_1 : IVec S_ 1 := constantI S_ 1 1#1
  let main_v7 : IVec S_ 1 := (fun x v => Host.reduce IntOp.andi x v reducesTo_S9x300_S_d0_1 h_S_) main_v6 main_c_1
  let main_v8 : IVec S_ 1 := andi main_v3 main_v7
  let main_v9 : FVec F S9 .f32 := Host.absf main_arg3
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S300x10 .f32 := Host.absf main_arg4
  let main_cst_4 : FVec F S_ .f32 := constant S_ .f32 0x7F800000#32
  let main_v15 : FVec F S300x10 .f32 := broadcastInDim S300x10 ![] bcast_S_S300x10 main_cst_4
  let main_v16 : IVec S300x10 1 := cmpf .olt main_v14 main_v15
  fn_part1 (F := F) main_arg5 main_v13 main_v16
-- ==== Kernel.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S2048x128 : Shape := ⟨2, ![2048, 128]⟩
abbrev S_ : Shape := ⟨0, ![]⟩
abbrev S2048x128x1 : Shape := ⟨3, ![2048, 128, 1]⟩
abbrev S2048x128x300 : Shape := ⟨3, ![2048, 128, 300]⟩
abbrev S1x1x9 : Shape := ⟨3, ![1, 1, 9]⟩
abbrev S2048x300 : Shape := ⟨2, ![2048, 300]⟩
abbrev S64x128x300 : Shape := ⟨3, ![64, 128, 300]⟩
abbrev S64x300 : Shape := ⟨2, ![64, 300]⟩
abbrev S8192x300 : Shape := ⟨2, ![8192, 300]⟩
abbrev S8192x9 : Shape := ⟨2, ![8192, 9]⟩
abbrev S64x128x9 : Shape := ⟨3, ![64, 128, 9]⟩
abbrev S64x128 : Shape := ⟨2, ![64, 128]⟩
abbrev S64x128x1 : Shape := ⟨3, ![64, 128, 1]⟩
abbrev S300x9 : Shape := ⟨2, ![300, 9]⟩
abbrev S2048x9 : Shape := ⟨2, ![2048, 9]⟩
abbrev S1x9 : Shape := ⟨2, ![1, 9]⟩
abbrev S2048 : Shape := ⟨1, ![2048]⟩
abbrev S2048x1 : Shape := ⟨2, ![2048, 1]⟩
abbrev S2048x10 : Shape := ⟨2, ![2048, 10]⟩
abbrev S1x10 : Shape := ⟨2, ![1, 10]⟩
abbrev S2048x4 : Shape := ⟨2, ![2048, 4]⟩
abbrev S2048x5 : Shape := ⟨2, ![2048, 5]⟩

abbrev nBuf : Space → Nat
  | .hbm => 117
  | .vmem => 8
  | .smem => 0
  | _ => 0

abbrev bufTy : (tb : Table) → Fin (tcTables nBuf tb) → BufTy
  | .hbm, ⟨0, _⟩ => ⟨S128x2048, .i32⟩
  | .hbm, ⟨1, _⟩ => ⟨S50000x300, .f32⟩
  | .hbm, ⟨2, _⟩ => ⟨S9x300, .f32⟩
  | .hbm, ⟨3, _⟩ => ⟨S9, .f32⟩
  | .hbm, ⟨4, _⟩ => ⟨S300x10, .f32⟩
  | .hbm, ⟨5, _⟩ => ⟨S10, .f32⟩
  | .hbm, ⟨6, _⟩ => ⟨S2048x128, .i32⟩
  | .hbm, ⟨7, _⟩ => ⟨S50000x300, .bf16⟩
  | .hbm, ⟨8, _⟩ => ⟨S_, .i32⟩
  | .hbm, ⟨9, _⟩ => ⟨S2048x128, .i32⟩
  | .hbm, ⟨10, _⟩ => ⟨S2048x128, .i1⟩
  | .hbm, ⟨11, _⟩ => ⟨S_, .i32⟩
  | .hbm, ⟨12, _⟩ => ⟨S2048x128, .i32⟩
  | .hbm, ⟨13, _⟩ => ⟨S2048x128, .i32⟩
  | .hbm, ⟨14, _⟩ => ⟨S2048x128, .i32⟩
  | .hbm, ⟨15, _⟩ => ⟨S2048x128x1, .i32⟩
  | .hbm, ⟨16, _⟩ => ⟨S2048x128x300, .bf16⟩
  | .hbm, ⟨17, _⟩ => ⟨S1x1x9, .f32⟩
  | .hbm, ⟨18, _⟩ => ⟨S2048x300, .f32⟩
  | .hbm, ⟨19, _⟩ => ⟨S2048x300, .f32⟩
  | .hbm, ⟨20, _⟩ => ⟨S300x9, .f32⟩
  | .hbm, ⟨21, _⟩ => ⟨S2048x9, .f32⟩
  | .hbm, ⟨22, _⟩ => ⟨S1x9, .f32⟩
  | .hbm, ⟨23, _⟩ => ⟨S2048x9, .f32⟩
  | .hbm, ⟨24, _⟩ => ⟨S2048x9, .f32⟩
  | .hbm, ⟨25, _⟩ => ⟨S_, .f32⟩
  | .hbm, ⟨26, _⟩ => ⟨S2048x9, .f32⟩
  | .hbm, ⟨27, _⟩ => ⟨S2048x9, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x9, .f32⟩
  | .hbm, ⟨35, _⟩ => ⟨S2048x9, .f32⟩
  | .hbm, ⟨36, _⟩ => ⟨S2048x9, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x9, .f32⟩
  | .hbm, ⟨41, _⟩ => ⟨S2048x9, .f32⟩
  | .hbm, ⟨42, _⟩ => ⟨S2048x10, .f32⟩
  | .hbm, ⟨43, _⟩ => ⟨S1x10, .f32⟩
  | .hbm, ⟨44, _⟩ => ⟨S2048x10, .f32⟩
  | .hbm, ⟨45, _⟩ => ⟨S2048x10, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1, .f32⟩
  | .hbm, ⟨52, _⟩ => ⟨S2048x10, .f32⟩
  | .hbm, ⟨53, _⟩ => ⟨S2048x10, .f32⟩
  | .hbm, ⟨54, _⟩ => ⟨S2048x10, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x10, .f32⟩
  | .hbm, ⟨59, _⟩ => ⟨S2048x10, .f32⟩
  | .hbm, ⟨60, _⟩ => ⟨S_, .f32⟩
  | .hbm, ⟨61, _⟩ => ⟨S2048x10, .f32⟩
  | .hbm, ⟨62, _⟩ => ⟨S2048x10, .i1⟩
  | .hbm, ⟨63, _⟩ => ⟨S_, .f32⟩
  | .hbm, ⟨64, _⟩ => ⟨S_, .f32⟩
  | .hbm, ⟨65, _⟩ => ⟨S2048x10, .f32⟩
  | .hbm, ⟨66, _⟩ => ⟨S2048x10, .f32⟩
  | .hbm, ⟨67, _⟩ => ⟨S_, .f32⟩
  | .hbm, ⟨68, _⟩ => ⟨S2048x10, .f32⟩
  | .hbm, ⟨69, _⟩ => ⟨S2048x10, .i1⟩
  | .hbm, ⟨70, _⟩ => ⟨S2048x10, .f32⟩
  | .hbm, ⟨71, _⟩ => ⟨S2048x10, .f32⟩
  | .hbm, ⟨72, _⟩ => ⟨S_, .f32⟩
  | .hbm, ⟨73, _⟩ => ⟨S_, .f32⟩
  | .hbm, ⟨74, _⟩ => ⟨S2048x10, .f32⟩
  | .hbm, ⟨75, _⟩ => ⟨S2048x10, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .i1⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S_, .f32⟩
  | .hbm, ⟨91, _⟩ => ⟨S2048, .f32⟩
  | .hbm, ⟨92, _⟩ => ⟨S2048, .f32⟩
  | .hbm, ⟨93, _⟩ => ⟨S_, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x9, .f32⟩
  | .hbm, ⟨102, _⟩ => ⟨S2048x9, .f32⟩
  | .hbm, ⟨103, _⟩ => ⟨S2048x4, .f32⟩
  | .hbm, ⟨104, _⟩ => ⟨S2048x5, .f32⟩
  | .hbm, ⟨105, _⟩ => ⟨S2048x10, .f32⟩
  | .hbm, ⟨106, _⟩ => ⟨S_, .f32⟩
  | .hbm, ⟨107, _⟩ => ⟨S10, .f32⟩
  | .hbm, ⟨108, _⟩ => ⟨S2048x10, .f32⟩
  | .hbm, ⟨109, _⟩ => ⟨S1x10, .f32⟩
  | .hbm, ⟨110, _⟩ => ⟨S2048x10, .f32⟩
  | .hbm, ⟨111, _⟩ => ⟨S2048x10, .f32⟩
  | .hbm, ⟨112, _⟩ => ⟨S_, .f32⟩
  | .hbm, ⟨113, _⟩ => ⟨S2048, .f32⟩
  | .hbm, ⟨114, _⟩ => ⟨S2048x1, .f32⟩
  | .hbm, ⟨115, _⟩ => ⟨S2048x10, .f32⟩
  | .hbm, ⟨116, _⟩ => ⟨S2048x10, .f32⟩
  | .local _ .vmem, ⟨0, _⟩ => ⟨S64x128x300, .bf16⟩
  | .local _ .vmem, ⟨1, _⟩ => ⟨S64x128x300, .bf16⟩
  | .local _ .vmem, ⟨2, _⟩ => ⟨S9x300, .f32⟩
  | .local _ .vmem, ⟨3, _⟩ => ⟨S1x1x9, .f32⟩
  | .local _ .vmem, ⟨4, _⟩ => ⟨S64x300, .f32⟩
  | .local _ .vmem, ⟨5, _⟩ => ⟨S64x300, .f32⟩
  | .local _ .vmem, ⟨6, _⟩ => ⟨S64x300, .f32⟩
  | .local _ .vmem, ⟨7, _⟩ => ⟨S64x300, .f32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_call3_v0 : Ref sig .tc := ⟨.hbm, 94, rfl⟩
abbrev main_call3_v1 : Ref sig .tc := ⟨.hbm, 95, rfl⟩
abbrev main_v63 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x2048_S2048x128_1_0 : S128x2048.Transposes [1, 0] S2048x128
  bitsLt_bf16_f32 : FTy.bits .bf16 < FTy.bits .f32
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  shapeCasts_S9_S1x1x9 : S9.ShapeCasts S1x1x9
  inb_S64x128x300_S64x128x300_0_0_0 : ∀ a, (![0, 0, 0] : Fin 3 → Nat) a + S64x128x300.size a ≤ S64x128x300.size a
  h_S64x128x300 : 0 < S64x128x300.numel
  shapeCasts_S64x128x300_S64x128x300 : S64x128x300.ShapeCasts S64x128x300
  shapeCasts_S64x128x300_S8192x300 : S64x128x300.ShapeCasts S8192x300
  inb_S9x300_S9x300_0_0 : ∀ a, (![0, 0] : Fin 2 → Nat) a + S9x300.size a ≤ S9x300.size a
  h_S9x300 : 0 < S9x300.numel
  shapeCasts_S8192x9_S64x128x9 : S8192x9.ShapeCasts S64x128x9
  inb_S1x1x9_S1x1x9_0_0_0 : ∀ a, (![0, 0, 0] : Fin 3 → Nat) a + S1x1x9.size a ≤ S1x1x9.size a
  h_S1x1x9 : 0 < S1x1x9.numel
  shapeCasts_S1x1x9_S1x1x9 : S1x1x9.ShapeCasts S1x1x9
  broadcasts_S1x1x9_S64x128x9 : S1x1x9.Broadcasts S64x128x9
  reduces_S64x128x9_S64x128 : S64x128x9.Reduces [2] S64x128
  shapeCasts_S64x128_S64x128x1 : S64x128.ShapeCasts S64x128x1
  broadcasts_S64x128x1_S64x128x300 : S64x128x1.Broadcasts S64x128x300
  reduces_S64x128x300_S64x300 : S64x128x300.Reduces [1] S64x300
  inb_S64x300_S64x300_0_0 : ∀ a, (![0, 0] : Fin 2 → Nat) a + S64x300.size a ≤ S64x300.size a
  h_S64x300 : 0 < S64x300.numel
  transposes_S9x300_S300x9_1_0 : S9x300.Transposes [1, 0] S300x9
  bcast_S9_S1x9_1 : S9.BroadcastsInDim S1x9 (![1] : Fin 1 → Fin S1x9.rank)
  bcast_S1x9_S2048x9_0_1 : S1x9.BroadcastsInDim S2048x9 (![0, 1] : Fin 2 → Fin S2048x9.rank)
  bcast_S_S2048x9 : S_.BroadcastsInDim S2048x9 (![] : Fin 0 → Fin S2048x9.rank)
  reducesTo_S2048x9_S2048_d1 : S2048x9.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x9_0_1 : S2048x1.BroadcastsInDim S2048x9 (![0, 1] : Fin 2 → Fin S2048x9.rank)
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  reducesTo_S2048x10_S2048_d1 : S2048x10.ReducesTo [1] S2048
  bcast_S2048x1_S2048x10_0_1 : S2048x1.BroadcastsInDim S2048x10 (![0, 1] : Fin 2 → Fin S2048x10.rank)
  bcast_S_S2048x10 : S_.BroadcastsInDim S2048x10 (![] : Fin 0 → Fin S2048x10.rank)
  bcast_S_S2048x1 : S_.BroadcastsInDim S2048x1 (![] : Fin 0 → Fin S2048x1.rank)
  slices_S2048x9_S2048x4_0_0 : S2048x9.Slices ![0, 0] S2048x4
  slices_S2048x9_S2048x5_0_4 : S2048x9.Slices ![0, 4] S2048x5
  concatenates_S2048x4_S2048x1_S2048x5_S2048x10_d1 : Shape.Concatenates [S2048x4, S2048x1, S2048x5] S2048x10 1
  reducesTo_S2048x10_S10_d0 : S2048x10.ReducesTo [0] S10
  gather_S50000x300_S2048x128x1_S2048x128x300_2_0_n_n_0_2_1300_wf : GatherDims.WF S50000x300 S2048x128x1 S2048x128x300 [2] [0] [] [0] [] 2 ![1, 300]
  dot_S8192x300_S9x300_S8192x9_1_1_0_0_n_n_wf : DotDims.WF S8192x300 S9x300 S8192x9 [1] [1] [0] [0] [] []
  dot_S2048x300_S300x9_S2048x9_1_0_0_1_n_n_wf : DotDims.WF S2048x300 S300x9 S2048x9 [1] [0] [0] [1] [] []
  dot_S2048x300_S300x10_S2048x10_1_0_0_1_n_n_wf : DotDims.WF S2048x300 S300x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x300.size a ≤ S2048x128x300.size a
  hwx0_0 : ∀ i : grid0.Coords, EltTy.bits .bf16 = 32 ∨ (Rect.block (s := S2048x128x300) S64x128x300.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x300.size a ≤ S9x300.size a
  hwx0_1 : ∀ i : grid0.Coords, EltTy.bits .f32 = 32 ∨ (Rect.block (s := S9x300) S9x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x9.size a ≤ S1x1x9.size a
  hwx0_2 : ∀ i : grid0.Coords, EltTy.bits .f32 = 32 ∨ (Rect.block (s := S1x1x9) S1x1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x300.size a ≤ S2048x300.size a
  hwx0_3 : ∀ i : grid0.Coords, EltTy.bits .f32 = 32 ∨ (Rect.block (s := S2048x300) S64x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x300.size a ≤ S2048x300.size a
  hwx0_4 : ∀ i : grid0.Coords, EltTy.bits .f32 = 32 ∨ (Rect.block (s := S2048x300) S64x300.size (cc0_transform_4 i) (hinb0_4 i)).WholeWords (EltTy.packing .f32)

variable [Facts₀]

def gather_S50000x300_S2048x128x1_S2048x128x300_2_0_n_n_0_2_1300 : GatherDims S50000x300 S2048x128x1 S2048x128x300 where
  offsetDims := [2]
  collapsedSliceDims := [0]
  operandBatchingDims := []
  startIndicesBatchingDims := []
  startIndexMap := [0]
  indexVectorDim := 2
  sliceSizes := ![1, 300]
  wf := gather_S50000x300_S2048x128x1_S2048x128x300_2_0_n_n_0_2_1300_wf
def dot_S8192x300_S9x300_S8192x9_1_1_0_0_n_n : DotDims S8192x300 S9x300 S8192x9 where
  lhsContracting := [1]
  rhsContracting := [1]
  lhsNonContracting := [0]
  rhsNonContracting := [0]
  lhsBatch := []
  rhsBatch := []
  wf := dot_S8192x300_S9x300_S8192x9_1_1_0_0_n_n_wf
def dot_S2048x300_S300x9_S2048x9_1_0_0_1_n_n : DotDims S2048x300 S300x9 S2048x9 where
  lhsContracting := [1]
  rhsContracting := [0]
  lhsNonContracting := [0]
  rhsNonContracting := [1]
  lhsBatch := []
  rhsBatch := []
  wf := dot_S2048x300_S300x9_S2048x9_1_0_0_1_n_n_wf
def dot_S2048x300_S300x10_S2048x10_1_0_0_1_n_n : DotDims S2048x300 S300x10 S2048x10 where
  lhsContracting := [1]
  rhsContracting := [0]
  lhsNonContracting := [0]
  rhsNonContracting := [1]
  lhsBatch := []
  rhsBatch := []
  wf := dot_S2048x300_S300x10_S2048x10_1_0_0_1_n_n_wf

abbrev win0_0 : Pipeline.Window sig grid0 :=
  Pipeline.Window.ofSpec (Memref.whole main_v8) S64x128x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S64x300.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S64x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S2048x128 : Shape := ⟨2, ![2048, 128]⟩
abbrev S_ : Shape := ⟨0, ![]⟩
abbrev S2048x128x1 : Shape := ⟨3, ![2048, 128, 1]⟩
abbrev S2048x128x300 : Shape := ⟨3, ![2048, 128, 300]⟩
abbrev S2048x128x9 : Shape := ⟨3, ![2048, 128, 9]⟩
abbrev S1x1x9 : Shape := ⟨3, ![1, 1, 9]⟩
abbrev S2048x300 : Shape := ⟨2, ![2048, 300]⟩
abbrev S300x9 : Shape := ⟨2, ![300, 9]⟩
abbrev S2048x9 : Shape := ⟨2, ![2048, 9]⟩
abbrev S1x9 : Shape := ⟨2, ![1, 9]⟩
abbrev S2048 : Shape := ⟨1, ![2048]⟩
abbrev S2048x1 : Shape := ⟨2, ![2048, 1]⟩
abbrev S2048x10 : Shape := ⟨2, ![2048, 10]⟩
abbrev S1x10 : Shape := ⟨2, ![1, 10]⟩
abbrev S2048x4 : Shape := ⟨2, ![2048, 4]⟩
abbrev S2048x5 : Shape := ⟨2, ![2048, 5]⟩

abbrev nBuf : Space → Nat
  | .hbm => 135
  | .vmem => 0
  | .smem => 0
  | _ => 0

abbrev hbmTy0_0 (i : Nat) : BufTy := match i % 128 with
  | 0 => ⟨S128x2048, .i32⟩
  | 1 => ⟨S50000x300, .f32⟩
  | 2 => ⟨S9x300, .f32⟩
  | 3 => ⟨S9, .f32⟩
  | 4 => ⟨S300x10, .f32⟩
  | 5 => ⟨S10, .f32⟩
  | 6 => ⟨S2048x128, .i32⟩
  | 7 => ⟨S_, .i32⟩
  | 8 => ⟨S2048x128, .i32⟩
  | 9 => ⟨S2048x128, .i1⟩
  | 10 => ⟨S_, .i32⟩
  | 11 => ⟨S2048x128, .i32⟩
  | 12 => ⟨S2048x128, .i32⟩
  | 13 => ⟨S2048x128, .i32⟩
  | 14 => ⟨S2048x128x1, .i32⟩
  | 15 => ⟨S2048x128x300, .f32⟩
  | 16 => ⟨S2048x128x9, .f32⟩
  | 17 => ⟨S1x1x9, .f32⟩
  | 18 => ⟨S2048x128x9, .f32⟩
  | 19 => ⟨S2048x128x9, .f32⟩
  | 20 => ⟨S_, .f32⟩
  | 21 => ⟨S2048x128x9, .f32⟩
  | 22 => ⟨S2048x128x9, .f32⟩
  | 23 => ⟨S_, .f32⟩
  | 24 => ⟨S2048x128, .f32⟩
  | 25 => ⟨S2048x128x1, .f32⟩
  | 26 => ⟨S2048x128x300, .f32⟩
  | 27 => ⟨S2048x128x300, .f32⟩
  | 28 => ⟨S_, .f32⟩
  | 29 => ⟨S2048x300, .f32⟩
  | 30 => ⟨S_, .f32⟩
  | 31 => ⟨S2048x300, .f32⟩
  | 32 => ⟨S2048x300, .f32⟩
  | 33 => ⟨S300x9, .f32⟩
  | 34 => ⟨S2048x9, .f32⟩
  | 35 => ⟨S1x9, .f32⟩
  | 36 => ⟨S2048x9, .f32⟩
  | 37 => ⟨S2048x9, .f32⟩
  | 38 => ⟨S_, .f32⟩
  | 39 => ⟨S2048x9, .f32⟩
  | 40 => ⟨S2048x9, .f32⟩
  | 41 => ⟨S_, .f32⟩
  | 42 => ⟨S2048, .f32⟩
  | 43 => ⟨S_, .f32⟩
  | 44 => ⟨S2048, .f32⟩
  | 45 => ⟨S2048, .f32⟩
  | 46 => ⟨S2048x1, .f32⟩
  | 47 => ⟨S2048x9, .f32⟩
  | 48 => ⟨S2048x9, .f32⟩
  | 49 => ⟨S2048x9, .f32⟩
  | 50 => ⟨S_, .f32⟩
  | 51 => ⟨S2048, .f32⟩
  | 52 => ⟨S2048x1, .f32⟩
  | 53 => ⟨S2048x9, .f32⟩
  | 54 => ⟨S2048x9, .f32⟩
  | 55 => ⟨S_, .f32⟩
  | 56 => ⟨S2048x300, .f32⟩
  | 57 => ⟨S_, .f32⟩
  | 58 => ⟨S2048x300, .f32⟩
  | 59 => ⟨S2048x300, .f32⟩
  | 60 => ⟨S2048x10, .f32⟩
  | 61 => ⟨S1x10, .f32⟩
  | 62 => ⟨S2048x10, .f32⟩
  | 63 => ⟨S2048x10, .f32⟩
  | 64 => ⟨S_, .f32⟩
  | 65 => ⟨S2048, .f32⟩
  | 66 => ⟨S_, .f32⟩
  | 67 => ⟨S2048, .f32⟩
  | 68 => ⟨S2048, .f32⟩
  | 69 => ⟨S2048x1, .f32⟩
  | 70 => ⟨S2048x10, .f32⟩
  | 71 => ⟨S2048x10, .f32⟩
  | 72 => ⟨S2048x10, .f32⟩
  | 73 => ⟨S_, .f32⟩
  | 74 => ⟨S2048, .f32⟩
  | 75 => ⟨S2048x1, .f32⟩
  | 76 => ⟨S2048x10, .f32⟩
  | 77 => ⟨S2048x10, .f32⟩
  | 78 => ⟨S_, .f32⟩
  | 79 => ⟨S2048x10, .f32⟩
  | 80 => ⟨S2048x10, .i1⟩
  | 81 => ⟨S_, .f32⟩
  | 82 => ⟨S_, .f32⟩
  | 83 => ⟨S2048x10, .f32⟩
  | 84 => ⟨S2048x10, .f32⟩
  | 85 => ⟨S_, .f32⟩
  | 86 => ⟨S2048x10, .f32⟩
  | 87 => ⟨S2048x10, .i1⟩
  | 88 => ⟨S2048x10, .f32⟩
  | 89 => ⟨S2048x10, .f32⟩
  | 90 => ⟨S_, .f32⟩
  | 91 => ⟨S_, .f32⟩
  | 92 => ⟨S2048x10, .f32⟩
  | 93 => ⟨S2048x10, .f32⟩
  | 94 => ⟨S_, .f32⟩
  | 95 => ⟨S2048, .f32⟩
  | 96 => ⟨S2048, .f32⟩
  | 97 => ⟨S_, .f32⟩
  | 98 => ⟨S_, .f32⟩
  | 99 => ⟨S_, .f32⟩
  | 100 => ⟨S2048, .f32⟩
  | 101 => ⟨S2048, .f32⟩
  | 102 => ⟨S_, .f32⟩
  | 103 => ⟨S2048, .f32⟩
  | 104 => ⟨S2048, .i1⟩
  | 105 => ⟨S_, .f32⟩
  | 106 => ⟨S2048, .f32⟩
  | 107 => ⟨S2048, .f32⟩
  | 108 => ⟨S_, .f32⟩
  | 109 => ⟨S2048, .f32⟩
  | 110 => ⟨S2048, .f32⟩
  | 111 => ⟨S_, .f32⟩
  | 112 => ⟨S_, .f32⟩
  | 113 => ⟨S2048, .f32⟩
  | 114 => ⟨S2048, .f32⟩
  | 115 => ⟨S2048x1, .f32⟩
  | 116 => ⟨S_, .f32⟩
  | 117 => ⟨S2048x1, .f32⟩
  | 118 => ⟨S2048x1, .f32⟩
  | 119 => ⟨S2048x9, .f32⟩
  | 120 => ⟨S2048x9, .f32⟩
  | 121 => ⟨S2048x4, .f32⟩
  | 122 => ⟨S2048x5, .f32⟩
  | 123 => ⟨S2048x10, .f32⟩
  | 124 => ⟨S_, .f32⟩
  | 125 => ⟨S10, .f32⟩
  | 126 => ⟨S2048x10, .f32⟩
  | 127 => ⟨S1x10, .f32⟩
  | _ => ⟨S128x2048, .i32⟩

abbrev hbmTy0_1 (i : Nat) : BufTy := match i % 128 with
  | 0 => ⟨S2048x10, .f32⟩
  | 1 => ⟨S2048x10, .f32⟩
  | 2 => ⟨S_, .f32⟩
  | 3 => ⟨S2048, .f32⟩
  | 4 => ⟨S2048x1, .f32⟩
  | 5 => ⟨S2048x10, .f32⟩
  | 6 => ⟨S2048x10, .f32⟩
  | _ => ⟨S128x2048, .i32⟩

abbrev hbmTy (i : Nat) : BufTy := match i / 128 with
  | 0 => hbmTy0_0 i
  | 1 => hbmTy0_1 i
  | _ => ⟨S128x2048, .i32⟩

abbrev bufTy : (tb : Table) → Fin (tcTables nBuf tb) → BufTy
  | .hbm, ⟨i, _⟩ => hbmTy i
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_call4_v0 : Ref sig .tc := ⟨.hbm, 112, rfl⟩
abbrev main_call4_v1 : Ref sig .tc := ⟨.hbm, 113, rfl⟩
abbrev main_v75 : Ref sig .tc := ⟨.hbm, 114, rfl⟩
abbrev main_v76 : Ref sig .tc := ⟨.hbm, 115, rfl⟩
abbrev main_cst_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_22 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S9_S1x1x9_2 : S9.BroadcastsInDim S1x1x9 (![2] : Fin 1 → Fin S1x1x9.rank)
  bcast_S1x1x9_S2048x128x9_0_1_2 : S1x1x9.BroadcastsInDim S2048x128x9 (![0, 1, 2] : Fin 3 → Fin S2048x128x9.rank)
  bcast_S_S2048x128x9 : S_.BroadcastsInDim S2048x128x9 (![] : Fin 0 → Fin S2048x128x9.rank)
  reducesTo_S2048x128x9_S2048x128_d2 : S2048x128x9.ReducesTo [2] S2048x128
  h_S_ : 0 < S_.numel
  bcast_S2048x128x1_S2048x128x300_0_1_2 : S2048x128x1.BroadcastsInDim S2048x128x300 (![0, 1, 2] : Fin 3 → Fin S2048x128x300.rank)
  reducesTo_S2048x128x300_S2048x300_d1 : S2048x128x300.ReducesTo [1] S2048x300
  bcast_S_S2048x300 : S_.BroadcastsInDim S2048x300 (![] : Fin 0 → Fin S2048x300.rank)
  transposes_S9x300_S300x9_1_0 : S9x300.Transposes [1, 0] S300x9
  bcast_S9_S1x9_1 : S9.BroadcastsInDim S1x9 (![1] : Fin 1 → Fin S1x9.rank)
  bcast_S1x9_S2048x9_0_1 : S1x9.BroadcastsInDim S2048x9 (![0, 1] : Fin 2 → Fin S2048x9.rank)
  bcast_S_S2048x9 : S_.BroadcastsInDim S2048x9 (![] : Fin 0 → Fin S2048x9.rank)
  reducesTo_S2048x9_S2048_d1 : S2048x9.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x9_0_1 : S2048x1.BroadcastsInDim S2048x9 (![0, 1] : Fin 2 → Fin S2048x9.rank)
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  reducesTo_S2048x10_S2048_d1 : S2048x10.ReducesTo [1] S2048
  bcast_S2048x1_S2048x10_0_1 : S2048x1.BroadcastsInDim S2048x10 (![0, 1] : Fin 2 → Fin S2048x10.rank)
  bcast_S_S2048x10 : S_.BroadcastsInDim S2048x10 (![] : Fin 0 → Fin S2048x10.rank)
  bcast_S_S2048x1 : S_.BroadcastsInDim S2048x1 (![] : Fin 0 → Fin S2048x1.rank)
  slices_S2048x9_S2048x4_0_0 : S2048x9.Slices ![0, 0] S2048x4
  slices_S2048x9_S2048x5_0_4 : S2048x9.Slices ![0, 4] S2048x5
  concatenates_S2048x4_S2048x1_S2048x5_S2048x10_d1 : Shape.Concatenates [S2048x4, S2048x1, S2048x5] S2048x10 1
  reducesTo_S2048x10_S10_d0 : S2048x10.ReducesTo [0] S10
  gather_S50000x300_S2048x128x1_S2048x128x300_2_0_n_n_0_2_1300_wf : GatherDims.WF S50000x300 S2048x128x1 S2048x128x300 [2] [0] [] [0] [] 2 ![1, 300]
  dot_S2048x128x300_S9x300_S2048x128x9_2_1_01_0_n_n_wf : DotDims.WF S2048x128x300 S9x300 S2048x128x9 [2] [1] [0, 1] [0] [] []
  dot_S2048x300_S300x9_S2048x9_1_0_0_1_n_n_wf : DotDims.WF S2048x300 S300x9 S2048x9 [1] [0] [0] [1] [] []
  dot_S2048x300_S300x10_S2048x10_1_0_0_1_n_n_wf : DotDims.WF S2048x300 S300x10 S2048x10 [1] [0] [0] [1] [] []

variable [Facts₀]

def gather_S50000x300_S2048x128x1_S2048x128x300_2_0_n_n_0_2_1300 : GatherDims S50000x300 S2048x128x1 S2048x128x300 where
  offsetDims := [2]
  collapsedSliceDims := [0]
  operandBatchingDims := []
  startIndicesBatchingDims := []
  startIndexMap := [0]
  indexVectorDim := 2
  sliceSizes := ![1, 300]
  wf := gather_S50000x300_S2048x128x1_S2048x128x300_2_0_n_n_0_2_1300_wf
def dot_S2048x128x300_S9x300_S2048x128x9_2_1_01_0_n_n : DotDims S2048x128x300 S9x300 S2048x128x9 where
  lhsContracting := [2]
  rhsContracting := [1]
  lhsNonContracting := [0, 1]
  rhsNonContracting := [0]
  lhsBatch := []
  rhsBatch := []
  wf := dot_S2048x128x300_S9x300_S2048x128x9_2_1_01_0_n_n_wf
def dot_S2048x300_S300x9_S2048x9_1_0_0_1_n_n : DotDims S2048x300 S300x9 S2048x9 where
  lhsContracting := [1]
  rhsContracting := [0]
  lhsNonContracting := [0]
  rhsNonContracting := [1]
  lhsBatch := []
  rhsBatch := []
  wf := dot_S2048x300_S300x9_S2048x9_1_0_0_1_n_n_wf
def dot_S2048x300_S300x10_S2048x10_1_0_0_1_n_n : DotDims S2048x300 S300x10 S2048x10 where
  lhsContracting := [1]
  rhsContracting := [0]
  lhsNonContracting := [0]
  rhsNonContracting := [1]
  lhsBatch := []
  rhsBatch := []
  wf := dot_S2048x300_S300x10_S2048x10_1_0_0_1_n_n_wf

class Facts : Prop extends Facts₀ where

variable [Facts]
-- ==== Proof.KernelIdealRegion.lean ====
/-
  The program's one pallas_call run as a pipeline, between the twelve host lines that prepare its operands and the
  ninety-seven that consume its two results.

  The call walks a grid of 32 points.  At point t it is handed rows 64t … 64t+63 of the gathered embeddings (window 0),
  the whole filter table (window 1) and the whole bias row (window 2), and it leaves in the staging buffers of its two
  results (windows 3 and 4) one value each, computed from those three blocks alone: the body reads its inputs whole,
  stores each result buffer whole, and keeps nothing from one point to the next.  So what each result buffer holds after
  the body is a function of the three input blocks, the inputs' buffers are as the body found them, and the region as
  a whole writes block t of each result array at point t and touches nothing else.  The later host lines write only
  their own result buffers, none of which is an array of the pipeline or an argument; that is what carries the
  arguments through to the end unchanged.
-/
import proofs.«160721_j61581241090537_1_alg».proof.Proof.Gen.KernelIdeal.Launch
import proofs.«160721_j61581241090537_1_alg».proof.Proof.Gen.KernelIdeal.Skeleton
import proofs.«160721_j61581241090537_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core c's buffers as the region finds them: the launch contents after the twelve lines before it. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

/-- The lines after the region, stretch by stretch (a called function's lines are a stretch of their own). -/
abbrev laterLines : List (List (HloOp τ sig (Elt F))) :=
  [hostOps1, hostOps1_1, hostOps1_2, hostOps1_3, hostOps1_4, hostOps1_5, hostOps1_6, hostOps1_7, hostOps1_8]

/-- The buffers the lines before the region write: each line its own result. -/
abbrev earlierResults : List (Ref sig .tc) :=
  [main_v0, main_v1, main_c, main_v2, main_v3, main_c_0, main_v4, main_v5, main_v6, main_v7, main_v8, main_v9]

/-- The buffers the lines after the region write: each line its own result. -/
abbrev laterResults : List (Ref sig .tc) :=
  [main_v11, main_v12, main_v13, main_v14, main_v15, main_call0_cst, main_call0_v0, main_v16, main_cst, main_v17, main_cst_1, main_v18, main_v19, main_v20, main_v21, main_v22, main_v23, main_cst_2, main_v24, main_v25, main_v26, main_v27, main_v28, main_v29, main_v30, main_v31, main_cst_3, main_v32, main_cst_4, main_v33, main_v34, main_v35, main_v36, main_v37, main_v38, main_cst_5, main_v39, main_v40, main_v41, main_v42, main_cst_6, main_v43, main_v44, main_cst_7, main_call1_v0, main_call1_v1, main_v45, main_cst_8, main_v46, main_v47, main_v48, main_v49, main_cst_9, main_call2_v0, main_call2_v1, main_v50, main_cst_10, main_v51, main_v52, main_cst_11, main_v53, main_v54, main_v55, main_v56, main_cst_12, main_v57, main_v58, main_cst_13, main_v59, main_v60, main_cst_14, main_v61, main_v62, main_cst_15, main_call3_v0, main_call3_v1, main_v63, main_v64, main_cst_16, main_v65, main_v66, main_v67, main_v68, main_v69, main_v70, main_v71, main_cst_17, main_v72, main_v73, main_v74, main_v75, main_v76, main_cst_18, main_v77, main_v78, main_v79, main_v80]

/-- A line whose one written buffer is on a list writes within that list. -/
theorem writes_within {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map.mpr ⟨r, h, rfl⟩))

/-- The lines before the region write only their own results. -/
theorem earlier_writes : (hostOps0 : List (HloOp τ sig (Elt F))).Forall
    fun op => op.writes ⊆ (earlierResults.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact writes_within (by decide)

/-- Nor do the lines after it, stretch by stretch. -/
theorem later_writes : ∀ ops ∈ (laterLines : List (List (HloOp τ sig (Elt F)))), ops.Forall
    fun op => op.writes ⊆ (laterResults.map (Proc.devRef (τ := τ) .tc)).toFinset := by
  intro ops hops
  simp only [laterLines, List.mem_cons, List.mem_nil_iff, or_false] at hops
  rcases hops with rfl | rfl | rfl | rfl | rfl | rfl | rfl | rfl | rfl
  all_goals
    simp only [hostOps1, hostOps1_1, hostOps1_2, hostOps1_3, hostOps1_4, hostOps1_5, hostOps1_6, hostOps1_7, hostOps1_8,
      List.Forall, StableHlo.nullary_writes, StableHlo.unary_writes, StableHlo.binary_writes,
      StableHlo.ternary_writes, StableHlo.reshape_writes, StableHlo.nary_writes]
    repeat' apply And.intro
    all_goals exact writes_within (by decide)

/-- The same over the later lines laid end to end. -/
theorem later_writes_flat : (laterLines (F := F)).flatten.Forall
    fun op => op.writes ⊆ (laterResults.map (Proc.devRef (τ := τ) .tc)).toFinset :=
  List.forall_iff_forall_mem.mpr fun op hop => by
    obtain ⟨ops, hops, hin⟩ := List.mem_flatten.mp hop
    exact (List.forall_iff_forall_mem.mp (later_writes ops hops)) op hin

/-- No line allocates a buffer. -/
theorem hostOps0_fresh : (hostOps0 : List (HloOp τ sig (Elt F))).Forall fun op => op.fresh = ∅ := by
  simp only [List.Forall]; repeat' constructor
theorem later_fresh : ∀ ops ∈ (laterLines : List (List (HloOp τ sig (Elt F)))), ∀ op ∈ ops, op.fresh = ∅ := by
  intro ops hops
  simp only [laterLines, List.mem_cons, List.mem_nil_iff, or_false] at hops
  rcases hops with rfl | rfl | rfl | rfl | rfl | rfl | rfl | rfl | rfl
  all_goals
    refine List.forall_iff_forall_mem.mp ?_
    simp only [List.Forall]; repeat' constructor

/-- @main is the earlier lines, the region, the later lines: holding the buffers at the launch contents it reduces to the
    region continued by the later lines, the buffers at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((laterLines (F := F)).map StableHlo.seq)) :=
  Pipeline.hmain_around cfgs 0 defs₀ 𝒱₀ m main [hostOps0] laterLines (by simp only [List.Forall]; exact hostOps0_sub)
    (by simp only [List.Forall]; exact hostOps0_fresh) main_chain

/-- The later lines touch only unscoped TensorCore buffers: the pipeline's arrays and the buffers that bypass it. -/
theorem later_sub : ∀ ops ∈ (laterLines : List (List (HloOp τ sig (Elt F)))), ∀ op ∈ ops,
    op.bufs ⊆ Pipeline.tailRefs sig Pipeline.Prefetch.none spec0 := by
  rw [Pipeline.tailRefs_none spec0 launch0.win.arr_unscoped]
  intro ops hops
  simp only [laterLines, List.mem_cons, List.mem_nil_iff, or_false] at hops
  rcases hops with rfl | rfl | rfl | rfl | rfl | rfl | rfl | rfl | rfl
  · exact fun op hop => Pipeline.sub_ucRefs op ((List.forall_iff_forall_mem.mp hostOps1_sub) op hop)
  · exact fun op hop => Pipeline.sub_ucRefs op ((List.forall_iff_forall_mem.mp hostOps1_1_sub) op hop)
  · exact fun op hop => Pipeline.sub_ucRefs op ((List.forall_iff_forall_mem.mp hostOps1_2_sub) op hop)
  · exact fun op hop => Pipeline.sub_ucRefs op ((List.forall_iff_forall_mem.mp hostOps1_3_sub) op hop)
  · exact fun op hop => Pipeline.sub_ucRefs op ((List.forall_iff_forall_mem.mp hostOps1_4_sub) op hop)
  · exact fun op hop => Pipeline.sub_ucRefs op ((List.forall_iff_forall_mem.mp hostOps1_5_sub) op hop)
  · exact fun op hop => Pipeline.sub_ucRefs op ((List.forall_iff_forall_mem.mp hostOps1_6_sub) op hop)
  · exact fun op hop => Pipeline.sub_ucRefs op ((List.forall_iff_forall_mem.mp hostOps1_7_sub) op hop)
  · exact fun op hop => Pipeline.sub_ucRefs op ((List.forall_iff_forall_mem.mp hostOps1_8_sub) op hop)

/-- No array of the pipeline is a result of a later line. -/
theorem arr_not_later : ∀ w, Pipeline.arrRef spec0 w ∉ laterResults := by decide

/-- So no later line writes an array of the pipeline. -/
theorem later_keeps : ∀ ops ∈ (laterLines : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp ((List.forall_iff_forall_mem.mp (later_writes ops hops)) op hop hw))
  exact arr_not_later w (Proc.devRef_injective _ he ▸ hy)

/-- A buffer no earlier line writes is found by the region as launched. -/
theorem V_of_not_earlier (c : Dev nD) {r : Ref sig .tc} (h : r ∉ earlierResults) : V m c r = m ((c : Thread nD τ).loc r) := by
  show StableHlo.after (List.flatten [hostOps0]) (fun b => m (c, b)) (Proc.devRef .tc r) = _
  simp only [List.flatten_cons, List.flatten_nil, List.append_nil]
  exact StableHlo.after_of_writes_sub hostOps0 _ earlier_writes h

theorem V_main_arg0 (c : Dev nD) : V m c main_arg0 = m ((c : Thread nD τ).loc main_arg0) := V_of_not_earlier m c (by decide)
theorem V_main_arg1 (c : Dev nD) : V m c main_arg1 = m ((c : Thread nD τ).loc main_arg1) := V_of_not_earlier m c (by decide)
theorem V_main_arg2 (c : Dev nD) : V m c main_arg2 = m ((c : Thread nD τ).loc main_arg2) := V_of_not_earlier m c (by decide)
theorem V_main_arg3 (c : Dev nD) : V m c main_arg3 = m ((c : Thread nD τ).loc main_arg3) := V_of_not_earlier m c (by decide)
theorem V_main_arg4 (c : Dev nD) : V m c main_arg4 = m ((c : Thread nD τ).loc main_arg4) := V_of_not_earlier m c (by decide)
theorem V_main_arg5 (c : Dev nD) : V m c main_arg5 = m ((c : Thread nD τ).loc main_arg5) := V_of_not_earlier m c (by decide)

/-- A buffer that is no array of the pipeline and no result of a later line ends as the region found it. -/
theorem end_of_not_later (dats : (p : Fin _) → (c : Dev nD) → Dat τ (Elt F) Unit ℕ (UR sig nD τ) ℕ (cfgs p) c) (c : Dev nD)
    {r : Ref sig .tc} (ha : ∀ w, Pipeline.arrRef spec0 w ≠ r) (h : r ∉ laterResults) :
    Pipeline.afterTail₀ cfgs dats 0 (V0 m) laterLines c r = V m c r := by
  unfold Pipeline.afterTail₀
  rw [StableHlo.after_of_writes_sub _ _ later_writes_flat h, Pipeline.withArrays_of_ne _ c (V0 m c) _ r ha]

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    left it in place (the filters and the biases are fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- At a final state in which every array of the pipeline holds what the proof data computes and every other buffer what
    the later lines leave, the six arguments are as launched: the filter table is an input array of the pipeline, which
    the region only reads; the other five are neither arrays nor results of any line. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) laterLines) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans
      ((end_of_not_later m dats c (by decide) (by decide)).trans (V_main_arg0 m c)),
   ((h c).2 main_arg1 (Pipeline.mem_restRefs_of main_arg1 (by decide) (by decide))).trans
      ((end_of_not_later m dats c (by decide) (by decide)).trans (V_main_arg1 m c)),
   ((h c).1 1).trans (((dats 0 c).arrAt_in 1 rfl _).trans ((hA c 1).trans (V_main_arg2 m c))),
   ((h c).2 main_arg3 (Pipeline.mem_restRefs_of main_arg3 (by decide) (by decide))).trans
      ((end_of_not_later m dats c (by decide) (by decide)).trans (V_main_arg3 m c)),
   ((h c).2 main_arg4 (Pipeline.mem_restRefs_of main_arg4 (by decide) (by decide))).trans
      ((end_of_not_later m dats c (by decide) (by decide)).trans (V_main_arg4 m c)),
   ((h c).2 main_arg5 (Pipeline.mem_restRefs_of main_arg5 (by decide) (by decide))).trans
      ((end_of_not_later m dats c (by decide) (by decide)).trans (V_main_arg5 m c))⟩

/-- So a run that ends in such states is a run that leaves the six arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) laterLines))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_of_post m dats hA r h c) h

/-! ## What the body leaves in each result's staging buffer -/

/-- The body's four accesses: each reads or writes its buffer whole. -/
abbrev rEmb : Rect S64x128x300 := Rect.unit (s := S64x128x300) ![0, 0, 0] S64x128x300.size Facts₀.inb_S64x128x300_S64x128x300_0_0_0
abbrev rFil : Rect S9x300 := Rect.unit (s := S9x300) ![0, 0] S9x300.size Facts₀.inb_S9x300_S9x300_0_0
abbrev rBias : Rect S1x1x9 := Rect.unit (s := S1x1x9) ![0, 0, 0] S1x1x9.size Facts₀.inb_S1x1x9_S1x1x9_0_0_0
abbrev rOut : Rect S64x300 := Rect.unit (s := S64x300) ![0, 0] S64x300.size Facts₀.inb_S64x300_S64x300_0_0

/-- The first result's buffer after the body: its one store, of the weighted averages computed from the three blocks. -/
def out0_3 (x0 : Vec F S64x128x300 .bf16) (x1 : Vec F S9x300 .f32) (x2 : Vec F S1x1x9 .f32) : Vec F S64x300 .f32 :=
  View.canon [⟨rOut, k0_pay3 (View.ld x0 rEmb) (View.ld x1 rFil) (View.ld x2 rBias)⟩]

/-- The second result's buffer after the body: its one store, of the plain averages of the embeddings' block. -/
def out0_4 (x0 : Vec F S64x128x300 .bf16) : Vec F S64x300 .f32 :=
  View.canon [⟨rOut, k0_pay4 (View.ld x0 rEmb)⟩]

/-- One store of the whole buffer covers it. -/
theorem cover_out (p0 : Vec F S64x300 .f32) (y : S64x300.Idx) :
    ∃ pc ∈ ([⟨rOut, p0⟩] : List (View.Piece (Elt F) S64x300 .f32)), y ∈ pc.1.set :=
  View.cover_of_tiled [⟨rOut, p0⟩] S64x300.size (by rfl) y

/-! ## The body's triple -/

set_option maxHeartbeats 4000000 in
/-- The body on whole staging buffers, the inputs' at contents x0, x1, x2 and the results' at anything: it runs to its
    continuation with the inputs' buffers as they were and each result's at out0_W of the inputs'.  (It also loads
    each result's buffer before storing into it; what it loads it never uses.) -/
theorem sound_kernel (c : Dev nD) (E : Set ℕ) (i : grid0.Coords)
    (arg1 : Memref sig .tc .vmem S64x128x300 .bf16) (harg1 : arg1.IsWhole) (arg2 : Memref sig .tc .vmem S9x300 .f32) (harg2 : arg2.IsWhole)
    (arg3 : Memref sig .tc .vmem S1x1x9 .f32) (harg3 : arg3.IsWhole) (arg4 : Memref sig .tc .vmem S64x300 .f32) (harg4 : arg4.IsWhole)
    (arg5 : Memref sig .tc .vmem S64x300 .f32) (harg5 : arg5.IsWhole)
    (x0 : Vec F S64x128x300 .bf16) (x1 : Vec F S9x300 .f32) (x2 : Vec F S1x1x9 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0)) -∗ K ⟨⟩))
      ⊢ wp frame (wpE (defs₀ (F := F)) Variants.none c none) E (cc0__tcnn_kernel i arg1 harg1 arg2 harg2 arg3 harg3 arg4 harg4 arg5 harg5) K := by
  simp only [cc0__tcnn_kernel_eq_skeleton]; unfold cc0__tcnn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

/-! ## The pipeline's proof data -/

/-- Core c's proof data: the arrays as the region finds them; after the body at point t each input's buffer at its
    block and each result's at out0_W of the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at its end every array of the pipeline holds what the proof data
    computes (a result array: each block what its point wrote) and every other buffer what the later lines leave. -/
theorem run_main : θ_run defs (onTc (τ := τ) (main (F := F))) (s₀ m ρ)
    (Pipeline.FramePost cfgs (dats m) 0 (Pipeline.afterTail₀ cfgs (dats m) 0 (V0 m) laterLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterLines) (hsub := later_sub) (hfresh := later_fresh) (hkeep := later_keeps)
    (hmain := hmain m Variants.none) (hA := A_eq m) (hΦ := fun _ _ => rfl)

/-- The program runs to its end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Region

end
-- ==== Proof.BlockValue.lean ====
/-
  One block of the pallas_call, read index by index on the extended reals.

  At a grid point the body holds a [64, 128, 300] block x0 of embeddings, the [9, 300] filters x1 and the [1, 1, 9]
  bias row x2.  Its two stored values are, at row p and feature e of the block,
      (Σ_s x0(p, s, e) · max_f max(Σ_e' x0(p, s, e') · x1(f, e') + x2(0, 0, f), 0)) / 128     and     (Σ_s x0(p, s, e)) / 128,
  the inner maximum over the nine filters started from −∞.
-/
import proofs.«160721_j61581241090537_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Idealize.ShloMosaic Idealize.ShloMosaic.ValueIdx Cert.KernelIdeal Cert.KernelIdeal.Gen

/-- The block under the identity shape cast is the block. -/
private theorem pay1_apply (x0 : S64x128x300.Idx → EReal) (i : S64x128x300.Idx) : k0_pay1 (F := Ideal) x0 i = x0 i := by
  unfold k0_pay1
  rw [shapeCast_self]

/-- The extended block is the block: the identity shape cast and the widening change no value. -/
private theorem pay2_apply (x0 : S64x128x300.Idx → EReal) (i : S64x128x300.Idx) : k0_pay2 (F := Ideal) x0 i = x0 i := by
  unfold k0_pay2 k0_pay1
  rw [shapeCast_self]
  rfl

/-- The sum over the middle axis of a [64, 128, 300] array, read at (p, e): the sum over s of its entries (p, s, e). -/
private theorem sumMid_apply (v : FVec Ideal S64x128x300 .f32) (p : Fin 64) (e : Fin 300) :
    multiReduction (F := Ideal) .add [1] S64x300 v 0x00000000#32 reduces_S64x128x300_S64x300 (.inl rfl) rfl (ix2 p e)
      = ∑ s : Fin 128, v (ix3 p s e) := by
  refine (Ideal.multiReduction_add_single v _ reduces_S64x128x300_S64x300 _ _ (ix2 p e)).trans ?_
  refine Finset.sum_congr rfl fun s _ => congrArg v ?_
  funext a
  match a with
  | ⟨0, _⟩ => rfl
  | ⟨1, _⟩ => rfl
  | ⟨2, _⟩ => rfl

/-- On the left operand of the product the row is the result's row. -/
private theorem lhs_ax0 (r : Fin 8192) (f : Fin 9) (k : dot_S8192x300_S9x300_S8192x9_1_1_0_0_n_n.contr.Idx) :
    (dot_S8192x300_S9x300_S8192x9_1_1_0_0_n_n.lhsIdx (ix2 r f) k (0 : Fin 2)).val = r.val := by
  simp [DotDims.lhsIdx, dot_S8192x300_S9x300_S8192x9_1_1_0_0_n_n]; rfl

/-- On the right operand of the product the row is the result's column. -/
private theorem rhs_ax0 (r : Fin 8192) (f : Fin 9) (k : dot_S8192x300_S9x300_S8192x9_1_1_0_0_n_n.contr.Idx) :
    (dot_S8192x300_S9x300_S8192x9_1_1_0_0_n_n.rhsIdx (ix2 r f) k (0 : Fin 2)).val = f.val := by
  simp [DotDims.rhsIdx, dot_S8192x300_S9x300_S8192x9_1_1_0_0_n_n]; rfl

/-- The product of an [8192, 300] matrix A by the transpose of a [9, 300] matrix B, accumulated into zero, read at
    (r, f): the sum over e' of A(r, e') · B(f, e'). -/
private theorem matmul_entry (A : FVec Ideal S8192x300 .bf16) (B : FVec Ideal S9x300 .bf16) (r : Fin 8192) (f : Fin 9) :
    matmul (F := Ideal) dot_S8192x300_S9x300_S8192x9_1_1_0_0_n_n none A B (constant (F := Ideal) S8192x9 .f32 0x00000000#32) (ix2 r f)
      = ∑ e' : Fin 300, A (ix2 r e') * B (ix2 f e') := by
  show FloatOps.matmul _ none A B _ (ix2 r f) = _
  rw [Ideal.matmul_constant_zero_apply,
    ← Equiv.sum_comp (contrEquiv1 dot_S8192x300_S9x300_S8192x9_1_1_0_0_n_n 300 rfl rfl).symm]
  refine Finset.sum_congr rfl fun c _ => ?_
  have hc := contrEquiv1_symm_val dot_S8192x300_S9x300_S8192x9_1_1_0_0_n_n 300 rfl rfl c
  have hl : dot_S8192x300_S9x300_S8192x9_1_1_0_0_n_n.lhsIdx (ix2 r f) ((contrEquiv1 _ 300 rfl rfl).symm c) = ix2 r c := by
    funext ax; apply Fin.ext
    match ax with
    | ⟨0, _⟩ => exact lhs_ax0 r f _
    | ⟨1, _⟩ => exact (DotDims.lhsIdx_val_of_single _ rfl _ _).trans hc
  have hr : dot_S8192x300_S9x300_S8192x9_1_1_0_0_n_n.rhsIdx (ix2 r f) ((contrEquiv1 _ 300 rfl rfl).symm c) = ix2 f c := by
    funext ax; apply Fin.ext
    match ax with
    | ⟨0, _⟩ => exact rhs_ax0 r f _
    | ⟨1, _⟩ => exact (DotDims.rhsIdx_val_of_single _ rfl _ _).trans hc
  rw [hl, hr]

/-- Row 128·p + s of the block flattened to [8192, 300] is row (p, s) of the block. -/
private theorem flat_apply {α : Type} (v : S64x128x300.Idx → α) (p : Fin 64) (s : Fin 128) (e : Fin 300) (h : 128 * p.val + s.val < 8192) :
    shapeCast S8192x300 v shapeCasts_S64x128x300_S8192x300 (ix2 (⟨128 * p.val + s.val, h⟩ : Fin 8192) e) = v (ix3 p s e) := by
  refine shapeCast_apply v _ _ (ix3 p s e) ?_
  rw [Shape.rowMajor_val_three, Shape.rowMajor_val_two]
  show (p.val * 128 + s.val) * 300 + e.val = (128 * p.val + s.val) * 300 + e.val
  omega

/-- Entry (p, s, f) of an [8192, 9] matrix unflattened to [64, 128, 9] is its entry (128·p + s, f). -/
private theorem unflat_apply {α : Type} (v : S8192x9.Idx → α) (p : Fin 64) (s : Fin 128) (f : Fin 9) (h : 128 * p.val + s.val < 8192) :
    shapeCast S64x128x9 v shapeCasts_S8192x9_S64x128x9 (ix3 p s f) = v (ix2 (⟨128 * p.val + s.val, h⟩ : Fin 8192) f) := by
  refine shapeCast_apply v _ _ (ix2 (⟨128 * p.val + s.val, h⟩ : Fin 8192) f) ?_
  rw [Shape.rowMajor_val_three, Shape.rowMajor_val_two]
  show (128 * p.val + s.val) * 9 + f.val = (p.val * 128 + s.val) * 9 + f.val
  omega

/-- The bias row broadcast over the block reads, at (p, s, f), the bias of filter f. -/
private theorem bias_apply {α : Type} (v : S1x1x9.Idx → α) (p : Fin 64) (s : Fin 128) (f : Fin 9) :
    broadcastTo S64x128x9 v broadcasts_S1x1x9_S64x128x9 (ix3 p s f) = v (ix3 (0 : Fin 1) (0 : Fin 1) f) := by
  refine broadcastTo_apply v _ _ (ix3 (0 : Fin 1) (0 : Fin 1) f) fun a => ?_
  match a with
  | ⟨0, _⟩ => rfl
  | ⟨1, _⟩ => rfl
  | ⟨2, _⟩ => rfl

/-- A [64, 128] array given a trailing unit axis and broadcast along it reads its entry (p, s) at every e. -/
private theorem col_apply {α : Type} (v : S64x128.Idx → α) (p : Fin 64) (s : Fin 128) (e : Fin 300) :
    broadcastTo S64x128x300 (shapeCast S64x128x1 v shapeCasts_S64x128_S64x128x1) broadcasts_S64x128x1_S64x128x300 (ix3 p s e)
      = v (ix2 p s) := by
  refine (broadcastTo_apply _ _ _ (ix3 p s (0 : Fin 1)) fun a => ?_).trans ?_
  · match a with
    | ⟨0, _⟩ => rfl
    | ⟨1, _⟩ => rfl
    | ⟨2, _⟩ => rfl
  · refine shapeCast_apply v _ _ (ix2 p s) ?_
    rw [Shape.rowMajor_val_three, Shape.rowMajor_val_two]
    show p.val * 128 + s.val = (p.val * 128 + s.val) * 1 + 0
    omega

/-- The maximum over the last axis of a [64, 128, 9] array, started from −∞, read at (p, s): the fold of max over f of
    its entries (p, s, f). -/
private theorem rowMax_apply (v : FVec Ideal S64x128x9 .f32) (p : Fin 64) (s : Fin 128) :
    multiReduction (F := Ideal) .maximumf [2] S64x128 v 0xFF800000#32 reduces_S64x128x9_S64x128 (.inl rfl) rfl (ix2 p s)
      = (Finset.univ : Finset (Fin 9)).fold max (Ideal.ofBits .f32 0xFF800000#32) (fun f => v (ix3 p s f)) := by
  refine (Ideal.multiReduction_maximumf_single v _ reduces_S64x128x9_S64x128 _ _ (ix2 p s)).trans ?_
  refine Finset.fold_congr fun f _ => congrArg v ?_
  funext a
  match a with
  | ⟨0, _⟩ => rfl
  | ⟨1, _⟩ => rfl
  | ⟨2, _⟩ => rfl

/-- The weighted averages the body stores, at row p and feature e of the block. -/
theorem pay3_apply (x0 : S64x128x300.Idx → EReal) (x1 : S9x300.Idx → EReal) (x2 : S1x1x9.Idx → EReal) (p : Fin 64) (e : Fin 300) :
    k0_pay3 (F := Ideal) x0 x1 x2 (ix2 p e)
      = Ideal.div (∑ s : Fin 128, x0 (ix3 p s e) *
          (Finset.univ : Finset (Fin 9)).fold max (Ideal.ofBits .f32 0xFF800000#32)
            (fun f => max ((∑ e' : Fin 300, x0 (ix3 p s e') * x1 (ix2 f e')) + x2 (ix3 (0 : Fin 1) (0 : Fin 1) f)) 0))
        (Ideal.ofBits .f32 0x43000000#32) := by
  unfold k0_pay3
  dsimp only
  refine (divf_apply _ _ _).trans (congrArg₂ Ideal.div ((sumMid_apply _ p e).trans ?_) rfl)
  refine Finset.sum_congr rfl fun s _ => ?_
  have hrow : 128 * p.val + s.val < 8192 := by have := p.isLt; have := s.isLt; omega
  refine (mulf_apply _ _ _).trans (congrArg₂ (· * ·) (pay2_apply x0 _) ((col_apply _ p s e).trans ((rowMax_apply _ p s).trans ?_)))
  refine Finset.fold_congr fun f _ => ?_
  refine (maximumf_apply _ _ _).trans (congrArg₂ max ((addf_apply _ _ _).trans (congrArg₂ (· + ·) ?_ ?_)) Ideal.ofBits_zero_f32)
  · refine (unflat_apply _ p s f hrow).trans ((matmul_entry _ _ _ f).trans ?_)
    exact Finset.sum_congr rfl fun e' _ => congrArg₂ (· * ·) ((flat_apply _ p s e' hrow).trans (pay1_apply x0 _)) rfl
  · exact (bias_apply _ p s f).trans (congrFun (shapeCast_self x2 _) _)

/-- The plain averages the body stores, at row p and feature e of the block. -/
theorem pay4_apply (x0 : S64x128x300.Idx → EReal) (p : Fin 64) (e : Fin 300) :
    k0_pay4 (F := Ideal) x0 (ix2 p e) = Ideal.div (∑ s : Fin 128, x0 (ix3 p s e)) (Ideal.ofBits .f32 0x43000000#32) := by
  unfold k0_pay4
  dsimp only
  refine (divf_apply _ _ _).trans (congrArg₂ Ideal.div ((sumMid_apply _ p e).trans ?_) rfl)
  exact Finset.sum_congr rfl fun s _ => pay2_apply x0 _

end Cert.KernelIdeal.BlockValue

end
-- ==== Proof.Spec.lean ====
/-
  What the pallas_call and the reference's first lines both compute, stated once and index by index.

  Every batch row i holds 128 tokens; token (i, s) has a 300-feature embedding emb(i, s, ·).  Nine filters
  w(f, ·) with biases b(f) score a token: score(i, s, f) = max(⟨emb(i, s, ·), w(f, ·)⟩ + b(f), 0).  The token's
  weight is the largest of its nine scores (a maximum started from −∞), and the row's two summaries are the
  weighted and the plain averages of its tokens' embeddings over the 128 positions,
      sen(i, e)  = (Σ_s emb(i, s, e) · weight(i, s)) / 128,      mean(i, e) = (Σ_s emb(i, s, e)) / 128,
  on the extended reals.  The kernel computes them sixty-four rows at a time, the reference on the whole array;
  nothing in these formulas depends on how the rows are grouped, which is all the two programs differ by here.
-/
import Idealize.ShloMosaic.PureOps.Ideal
import Idealize.ShloMosaic.Lib.ValueIdx

noncomputable section

namespace Cert.Spec

open Idealize.ShloMosaic Idealize.ShloMosaic.ValueIdx

/-- The embeddings of every token: batch row, position, feature. -/
abbrev SEmb : Shape := ⟨3, ![2048, 128, 300]⟩
/-- The nine filters. -/
abbrev SFil : Shape := ⟨2, ![9, 300]⟩
/-- Their biases. -/
abbrev SBias : Shape := ⟨1, ![9]⟩
/-- One 300-feature summary per batch row. -/
abbrev SRow : Shape := ⟨2, ![2048, 300]⟩

/-- Filter f's score of token (i, s): the dot product of the token's embedding with the filter, plus the filter's
    bias, clipped below at zero. -/
def score (emb : SEmb.Idx → EReal) (w : SFil.Idx → EReal) (b : SBias.Idx → EReal) (i : Fin 2048) (s : Fin 128)
    (f : Fin 9) : EReal :=
  max ((∑ e : Fin 300, emb (ix3 i s e) * w (ix2 f e)) + b (ix1 f)) 0

/-- Token (i, s)'s weight: the largest of its nine scores, the maximum taken from −∞. -/
def weight (emb : SEmb.Idx → EReal) (w : SFil.Idx → EReal) (b : SBias.Idx → EReal) (i : Fin 2048) (s : Fin 128) : EReal :=
  (Finset.univ : Finset (Fin 9)).fold max (Ideal.ofBits .f32 0xFF800000#32) (score emb w b i s)

/-- Feature e of row i's weighted average over its 128 positions. -/
def senAt (emb : SEmb.Idx → EReal) (w : SFil.Idx → EReal) (b : SBias.Idx → EReal) (i : Fin 2048) (e : Fin 300) : EReal :=
  Ideal.div (∑ s : Fin 128, emb (ix3 i s e) * weight emb w b i s) (Ideal.ofBits .f32 0x43000000#32)

/-- Feature e of row i's plain average over its 128 positions. -/
def meanAt (emb : SEmb.Idx → EReal) (i : Fin 2048) (e : Fin 300) : EReal :=
  Ideal.div (∑ s : Fin 128, emb (ix3 i s e)) (Ideal.ofBits .f32 0x43000000#32)

/-- The weighted averages as one array. -/
def sen (emb : SEmb.Idx → EReal) (w : SFil.Idx → EReal) (b : SBias.Idx → EReal) : SRow.Idx → EReal :=
  fun j => senAt emb w b (j 0) (j 1)

/-- The plain averages as one array. -/
def mean (emb : SEmb.Idx → EReal) : SRow.Idx → EReal := fun j => meanAt emb (j 0) (j 1)

theorem sen_apply (emb : SEmb.Idx → EReal) (w : SFil.Idx → EReal) (b : SBias.Idx → EReal) (i : Fin 2048) (e : Fin 300) :
    sen emb w b (ix2 i e) = senAt emb w b i e := rfl

theorem mean_apply (emb : SEmb.Idx → EReal) (i : Fin 2048) (e : Fin 300) : mean emb (ix2 i e) = meanAt emb i e := rfl

end Cert.Spec

end
-- ==== Proof.KernelIdealArrays.lean ====
/-
  The two result arrays of the pallas_call after all 32 grid points, on the extended reals.

  Point t of the grid reads rows 64t … 64t+63 of the embeddings and writes rows 64t … 64t+63 of each result; the filters
  and the biases are read whole at every point.  Row p of a block is row 64t + p of the array, so what point t writes
  back is rows 64t … 64t+63 of the specification's arrays of the embeddings, filters and biases the region finds; the 32
  blocks tile the 2048 rows, so each result array ends as the specification's, whole.
-/
import proofs.«160721_j61581241090537_1_alg».proof.Proof.KernelIdealRegion
import proofs.«160721_j61581241090537_1_alg».proof.Proof.BlockValue
import proofs.«160721_j61581241090537_1_alg».proof.Proof.Spec
import Idealize.ShloMosaic.Lib.ValueIdx
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen Cert.KernelIdeal.Region
open Idealize.ShloMosaic.Pipeline (Dat)

variable (m : (ℓ : Loc nD τ sig) → Buf (Elt Ideal) ℓ)

/-- The gathered embeddings as the region finds them. -/
abbrev embK (c : Dev nD) : S2048x128x300.Idx → EReal := V m c main_v8
/-- The filters as the region finds them. -/
abbrev filK (c : Dev nD) : S9x300.Idx → EReal := V m c main_arg2
/-- The bias row [1, 1, 9] as the region finds it, -/
abbrev biasRowK (c : Dev nD) : S1x1x9.Idx → EReal := V m c main_v9
/-- and read as a vector of nine. -/
def biasK (c : Dev nD) : S9.Idx → EReal := fun f => biasRowK m c (ix3 (0 : Fin 1) (0 : Fin 1) (f 0))

/-- Three zero offsets are the zero function. -/
private theorem hz3 : (![0, 0, 0] : Fin 3 → Nat) = fun _ => 0 := funext fun a => by fin_cases a <;> rfl
/-- Two zero offsets are the zero function. -/
private theorem hz2 : (![0, 0] : Fin 2 → Nat) = fun _ => 0 := funext fun a => by fin_cases a <;> rfl

/-- The block indices at point t: the embeddings' and both results' blocks are block t along the rows, the filters'
    and the bias row's the one block there is. -/
private theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the embeddings' block at point t is row 64t + p of the embeddings. -/
private theorem emb_blk (c : Dev nD) (t : Fin cfg0.N) (p : Fin 64) (s : Fin 128) (e : Fin 300) (h : 64 * t.val + p.val < 2048) :
    (iblk m c 0 t : S64x128x300.Idx → EReal) (ix3 p s e) = embK m c (ix3 (⟨64 * t.val + p.val, h⟩ : Fin 2048) s e) := by
  obtain ⟨e0, e1, e2, -⟩ := idx_facts t
  unfold iblk
  rw [View.read_apply]
  show V m c main_v8 _ = V m c main_v8 _
  congr 1
  funext a
  apply Fin.ext
  match a with
  | ⟨0, _⟩ => show win0_0.index t (0 : Fin 3) * 64 + 1 * p.val = 64 * t.val + p.val; omega
  | ⟨1, _⟩ => show win0_0.index t (1 : Fin 3) * 128 + 1 * s.val = s.val; omega
  | ⟨2, _⟩ => show win0_0.index t (2 : Fin 3) * 300 + 1 * e.val = e.val; omega

/-- Row p of a result's block at point t is row 64t + p of the result (second result). -/
private theorem out4_emb (t : Fin cfg0.N) (p : Fin 64) (e : Fin 300) (h : 64 * t.val + p.val < 2048) :
    ((cfg0.win 4).blk t).view.emb (ix2 p e : S64x300.Idx) = (ix2 (⟨64 * t.val + p.val, h⟩ : Fin 2048) e : S2048x300.Idx) := by
  obtain ⟨-, -, -, -, -, -, -, -, -, -, e0, e1⟩ := idx_facts t
  funext a
  apply Fin.ext
  match a with
  | ⟨0, _⟩ => show win0_4.index t (0 : Fin 2) * 64 + 1 * p.val = 64 * t.val + p.val; omega
  | ⟨1, _⟩ => show win0_4.index t (1 : Fin 2) * 300 + 1 * e.val = e.val; omega

/-- What point t writes back to the second result is its block of the specification's plain averages. -/
private theorem flushed4_eq (c : Dev nD) (t : Fin cfg0.N) :
    (dats m 0 c).flushed 4 t = ((cfg0.win 4).blk t).view.read (Elt Ideal) (Cert.Spec.mean (embK m c)) := by
  show (cfg0.win 4).cut (grid0.coords t) ((dats m 0 c).after 4 t) = _
  rw [after0_4]
  unfold out0_4
  rw [View.canon_unit_zero hz2]
  simp only [View.ld_unit_zero (S := S64x128x300) hz3]
  funext j
  have ht : t.val < 32 := Nat.lt_of_lt_of_eq t.isLt N_0
  show k0_pay4 (F := Ideal) (iblk m c 0 t) (j : S64x300.Idx) = Cert.Spec.mean (embK m c) (((cfg0.win 4).blk t).view.emb (j : S64x300.Idx))
  obtain ⟨p, e, rfl⟩ : ∃ (p : Fin 64) (e : Fin 300), (j : S64x300.Idx) = ix2 p e := ⟨j 0, j 1, eq_ix2 (j : S64x300.Idx)⟩
  have hrow : 64 * t.val + p.val < 2048 := by have := p.isLt; omega
  rw [out4_emb t p e hrow, Cert.Spec.mean_apply]
  refine (BlockValue.pay4_apply _ p e).trans ?_
  unfold Cert.Spec.meanAt
  exact congrArg₂ Ideal.div (Finset.sum_congr rfl fun s _ => emb_blk m c t p s e hrow) rfl

/-- The filters' block at every point is the filters. -/
private theorem fil_blk (c : Dev nD) (t : Fin cfg0.N) (f : Fin 9) (e : Fin 300) :
    (iblk m c 1 t : S9x300.Idx → EReal) (ix2 f e) = filK m c (ix2 f e) := by
  obtain ⟨-, -, -, e0, e1, -⟩ := idx_facts t
  unfold iblk
  rw [View.read_apply]
  show V m c main_arg2 _ = V m c main_arg2 _
  congr 1
  funext a
  apply Fin.ext
  match a with
  | ⟨0, _⟩ => show win0_1.index t (0 : Fin 2) * 9 + 1 * f.val = f.val; omega
  | ⟨1, _⟩ => show win0_1.index t (1 : Fin 2) * 300 + 1 * e.val = e.val; omega

/-- The bias row's block at every point is the bias row. -/
private theorem bias_blk (c : Dev nD) (t : Fin cfg0.N) (f : Fin 9) :
    (iblk m c 2 t : S1x1x9.Idx → EReal) (ix3 (0 : Fin 1) (0 : Fin 1) f) = biasK m c (ix1 f) := by
  obtain ⟨-, -, -, -, -, e0, e1, e2, -⟩ := idx_facts t
  unfold iblk biasK
  rw [View.read_apply]
  show V m c main_v9 _ = V m c main_v9 _
  congr 1
  funext a
  apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 9 + 1 * f.val = f.val; omega

/-- Row p of the first result's block at point t is row 64t + p of the result. -/
private theorem out3_emb (t : Fin cfg0.N) (p : Fin 64) (e : Fin 300) (h : 64 * t.val + p.val < 2048) :
    ((cfg0.win 3).blk t).view.emb (ix2 p e : S64x300.Idx) = (ix2 (⟨64 * t.val + p.val, h⟩ : Fin 2048) e : S2048x300.Idx) := by
  obtain ⟨-, -, -, -, -, -, -, -, e0, e1, -⟩ := idx_facts t
  funext a
  apply Fin.ext
  match a with
  | ⟨0, _⟩ => show win0_3.index t (0 : Fin 2) * 64 + 1 * p.val = 64 * t.val + p.val; omega
  | ⟨1, _⟩ => show win0_3.index t (1 : Fin 2) * 300 + 1 * e.val = e.val; omega

/-- What point t writes back to the first result is its block of the specification's weighted averages. -/
private theorem flushed3_eq (c : Dev nD) (t : Fin cfg0.N) :
    (dats m 0 c).flushed 3 t
      = ((cfg0.win 3).blk t).view.read (Elt Ideal) (Cert.Spec.sen (embK m c) (filK m c) (biasK m c)) := by
  show (cfg0.win 3).cut (grid0.coords t) ((dats m 0 c).after 3 t) = _
  rw [after0_3]
  unfold out0_3
  rw [View.canon_unit_zero hz2]
  simp only [View.ld_unit_zero (S := S64x128x300) hz3, View.ld_unit_zero (S := S9x300) hz2, View.ld_unit_zero (S := S1x1x9) hz3]
  funext j
  have ht : t.val < 32 := Nat.lt_of_lt_of_eq t.isLt N_0
  show k0_pay3 (F := Ideal) (iblk m c 0 t) (iblk m c 1 t) (iblk m c 2 t) (j : S64x300.Idx)
    = Cert.Spec.sen (embK m c) (filK m c) (biasK m c) (((cfg0.win 3).blk t).view.emb (j : S64x300.Idx))
  obtain ⟨p, e, rfl⟩ : ∃ (p : Fin 64) (e : Fin 300), (j : S64x300.Idx) = ix2 p e := ⟨j 0, j 1, eq_ix2 (j : S64x300.Idx)⟩
  have hrow : 64 * t.val + p.val < 2048 := by have := p.isLt; omega
  rw [out3_emb t p e hrow, Cert.Spec.sen_apply]
  refine (BlockValue.pay3_apply _ _ _ p e).trans ?_
  unfold Cert.Spec.senAt Cert.Spec.weight Cert.Spec.score
  refine congrArg₂ Ideal.div (Finset.sum_congr rfl fun s _ => congrArg₂ (· * ·) (emb_blk m c t p s e hrow)
    (Finset.fold_congr fun f _ => congrArg₂ max (congrArg₂ (· + ·)
      (Finset.sum_congr rfl fun e' _ => congrArg₂ (· * ·) (emb_blk m c t p s e' hrow) (fil_blk m c t f e'))
      (bias_blk m c t f)) rfl)) rfl

/-- An index of the first result whose row is among rows 64t … 64t + 63 lies in point t's block. -/
private theorem mem_blk3 (t : Fin cfg0.N) (i : S2048x300.Idx) (h0 : 64 * t.val ≤ (i 0).val) (h1 : (i 0).val < 64 * t.val + 64) :
    i ∈ ((cfg0.win 3).blk t).view.set := by
  have hi1 : (i 1).val < 300 := (i 1).isLt
  obtain ⟨-, -, -, -, -, -, -, -, e0, e1, -⟩ := idx_facts t
  show i ∈ ((View.whole main_v10_0).slice (win0_3.rect t)).set
  rw [View.set_slice_whole, Rect.mem_set_unit]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 300 ≤ (i 1).val ∧ (i 1).val < win0_3.index t (1 : Fin 2) * 300 + 300
    omega

/-- Every index of the first result lies in the block of the point its row falls in. -/
private theorem cover3 (i : S2048x300.Idx) :
    ∃ t : Fin cfg0.N, (cfg0.win 3).flush t = true ∧ i ∈ ((cfg0.win 3).blk t).view.set := by
  have hi0 : (i 0).val < 2048 := (i 0).isLt
  have hN : cfg0.N = 32 := N_0
  exact ⟨⟨(i 0).val / 64, by rw [hN]; omega⟩, flush0_3 _, mem_blk3 _ i (by show 64 * ((i 0).val / 64) ≤ (i 0).val; omega)
    (by show (i 0).val < 64 * ((i 0).val / 64) + 64; omega)⟩

/-- An index of the second result whose row is among rows 64t … 64t + 63 lies in point t's block. -/
private theorem mem_blk4 (t : Fin cfg0.N) (i : S2048x300.Idx) (h0 : 64 * t.val ≤ (i 0).val) (h1 : (i 0).val < 64 * t.val + 64) :
    i ∈ ((cfg0.win 4).blk t).view.set := by
  have hi1 : (i 1).val < 300 := (i 1).isLt
  obtain ⟨-, -, -, -, -, -, -, -, -, -, e0, e1⟩ := idx_facts t
  show i ∈ ((View.whole main_v10_1).slice (win0_4.rect t)).set
  rw [View.set_slice_whole, Rect.mem_set_unit]
  intro a
  match a with
  | ⟨0, _⟩ =>
    show win0_4.index t (0 : Fin 2) * 64 ≤ (i 0).val ∧ (i 0).val < win0_4.index t (0 : Fin 2) * 64 + 64
    omega
  | ⟨1, _⟩ =>
    show win0_4.index t (1 : Fin 2) * 300 ≤ (i 1).val ∧ (i 1).val < win0_4.index t (1 : Fin 2) * 300 + 300
    omega

/-- Every index of the second result lies in the block of the point its row falls in. -/
private theorem cover4 (i : S2048x300.Idx) :
    ∃ t : Fin cfg0.N, (cfg0.win 4).flush t = true ∧ i ∈ ((cfg0.win 4).blk t).view.set := by
  have hi0 : (i 0).val < 2048 := (i 0).isLt
  have hN : cfg0.N = 32 := N_0
  exact ⟨⟨(i 0).val / 64, by rw [hN]; omega⟩, flush0_4 _, mem_blk4 _ i (by show 64 * ((i 0).val / 64) ≤ (i 0).val; omega)
    (by show (i 0).val < 64 * ((i 0).val / 64) + 64; omega)⟩

/-- The first result array after the run: the weighted averages of the specification. -/
theorem final_sen (c : Dev nD) :
    (dats m 0 c).arrAt 3 cfg0.N = Cert.Spec.sen (embK m c) (filK m c) (biasK m c) := by
  exact (dats m 0 c).arrAt_eq_of_cover 3 (Cert.Spec.sen (embK m c) (filK m c) (biasK m c)) (fun t _ => flushed3_eq m c t) cover3

/-- The second result array after the run: the plain averages of the specification. -/
theorem final_mean (c : Dev nD) :
    (dats m 0 c).arrAt 4 cfg0.N = Cert.Spec.mean (embK m c) := by
  exact (dats m 0 c).arrAt_eq_of_cover 4 (Cert.Spec.mean (embK m c)) (fun t _ => flushed4_eq m c t) cover4

open Idealize.ShloMosaic.StableHlo in
/-- The bias row as the region finds it is the host's reshape of the nine biases to [1, 1, 9]. -/
private theorem biasRow_eq (c : Dev nD) :
    biasRowK m c = shapeCast S1x1x9 (m ((c : Thread nD τ).loc main_arg3) : S9.Idx → EReal) shapeCasts_S9_S1x1x9 := by
  show StableHlo.after (List.flatten [hostOps0]) (fun b => m (c, b)) (Proc.devRef .tc main_v9) = _
  simp only [hostOps0, List.flatten_cons, List.flatten_nil, List.append_nil]
  after_results
  rfl

/-- The biases the region finds are the launch's: entry (0, 0, f) of the reshaped row is bias f. -/
theorem biasK_eq (c : Dev nD) : biasK m c = (m ((c : Thread nD τ).loc main_arg3) : S9.Idx → EReal) := by
  funext f
  obtain ⟨f0, rfl⟩ : ∃ f0 : Fin 9, f = ix1 f0 := ⟨f 0, eq_ix1 f⟩
  unfold biasK
  rw [biasRow_eq]
  refine shapeCast_apply _ _ (ix3 (0 : Fin 1) (0 : Fin 1) f0) (ix1 f0) ?_
  rw [Shape.rowMajor_val_one, Shape.rowMajor_val_three]
  show f0.val = (0 * 1 + 0) * 9 + f0.val
  omega

end Cert.KernelIdeal.Arrays

end
-- ==== Proof.KernelIdealEntry.lean ====
/-
  The embeddings the pallas_call is handed, as a function of the program's arguments.

  Before the call the program transposes the token ids to [batch row, position], wraps a negative id by the table's
  50000 rows, narrows the table's entries to the shorter float format, and looks every token's row up in it.  The
  result, laid out [batch row, position, feature], is the call's first operand.
-/
import proofs.«160721_j61581241090537_1_alg».proof.Proof.KernelIdealRegion
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Region

variable {F : FTy → Type} [FloatOps F]

/-- The token ids laid out [batch row, position, 1], a negative id wrapped by the table's 50000 rows. -/
def tokens (txt : (⟨S128x2048, .i32⟩ : BufTy).Contents (Elt F)) : (⟨S2048x128x1, .i32⟩ : BufTy).Contents (Elt F) :=
  have v0 : (⟨S2048x128, .i32⟩ : BufTy).Contents (Elt F) := transpose S2048x128 [1, 0] txt Facts₀.transposes_S128x2048_S2048x128_1_0
  have v3 : (⟨S2048x128, .i1⟩ : BufTy).Contents (Elt F) := cmpi .slt v0 (broadcastInDim S2048x128 ![] Facts₀.bcast_S_S2048x128 (constantI S_ 32 0#32))
  have v5 : (⟨S2048x128, .i32⟩ : BufTy).Contents (Elt F) := addi v0 (broadcastInDim S2048x128 ![] Facts₀.bcast_S_S2048x128 (constantI S_ 32 50000#32))
  broadcastInDim S2048x128x1 ![0, 1] Facts₀.bcast_S2048x128_S2048x128x1_0_1 (select v3 v5 v0)

/-- Every token's embedding: its row of the narrowed table. -/
def embOf (tbl : FVec F S50000x300 .f32) (txt : (⟨S128x2048, .i32⟩ : BufTy).Contents (Elt F)) : FVec F S2048x128x300 .bf16 :=
  Host.gather gather_S50000x300_S2048x128x1_S2048x128x300_2_0_n_n_0_2_1300 (truncf .bf16 tbl Facts₀.bitsLt_bf16_f32) (tokens txt)

variable (m : (ℓ : Loc nD τ sig) → Buf (Elt F) ℓ)

/-- The region finds the embeddings of the launched token ids in the launched table. -/
theorem V_main_v8 (c : Dev nD) :
    V m c main_v8 = embOf (m ((c : Thread nD τ).loc main_arg1)) (m ((c : Thread nD τ).loc main_arg0)) := by
  show StableHlo.after (List.flatten [hostOps0]) (fun b => m (c, b)) (Proc.devRef .tc main_v8) = _
  simp only [hostOps0, List.flatten_cons, List.flatten_nil, List.append_nil]
  after_results
  rfl

end Cert.KernelIdeal.Entry

end
-- ==== Proof.Stages.lean ====
/-
  What both programs do with the two row summaries, as six functions.

  From the weighted averages sen [2048, 300]: q = softmax over the nine filters of max(sen · wᵀ + b, 0).  From the plain
  averages mean [2048, 300]: pred = softmax over ten classes of mean · Wk + bk.  The normalised entropy of pred,
      h = −(Σ_k [pred_k > 0] pred_k · log(pred_k or 1)) / log 10,
  gives the weight of the extra class, null = (h − ½) / ½ where h ≥ ½ and 0 elsewhere.  The ten-column array
  q⁺ = [q₀…q₃ · (1 − null), null, q₄…q₈ · (1 − null)] is the second result; the first is p, with
  p_ik = (q⁺_ik² / Σ_i q⁺_ik) / Σ_k (q⁺_ik² / Σ_i q⁺_ik).
  The kernel's program and the reference apply these same lines, one after the other, to their own sen and mean; each
  function below is those lines composed, written once and never opened: equal summaries give equal results.
-/
import proofs.«160721_j61581241090537_1_alg».proof.KernelIdeal
import proofs.«160721_j61581241090537_1_alg».proof.Proof.Gen.KernelIdeal

noncomputable section

namespace Cert.Stages

open Idealize.ShloMosaic Idealize.SL.Sem Cert.KernelIdeal Cert.KernelIdeal.Facts₀

variable {F : FTy → Type} [FloatOps F]

/-- Subtract each row's maximum, exponentiate, divide by the row's sum: the nine-column softmax. -/
def softmax9 (x : FVec F S2048x9 .f32) : FVec F S2048x9 .f32 :=
  have v17 : FVec F S2048 .f32 := Host.reduce FloatOps.maximumf x (constant S_ .f32 0xFF800000#32) reducesTo_S2048x9_S2048_d1 h_S_
  have v19 : FVec F S2048 .f32 := maximumf (broadcastInDim S2048 ![] bcast_S_S2048 (constant S_ .f32 0xFF800000#32)) v17
  have v21 : FVec F S2048x9 .f32 := broadcastInDim S2048x9 ![0, 1] bcast_S2048x1_S2048x9_0_1 (broadcastInDim S2048x1 ![0] bcast_S2048_S2048x1_0 v19)
  have v23 : FVec F S2048x9 .f32 := Host.exp (subf x v21)
  have v24 : FVec F S2048 .f32 := Host.reduceAdd v23 (constant S_ .f32 0x00000000#32) reducesTo_S2048x9_S2048_d1 h_S_
  Host.divf v23 (broadcastInDim S2048x9 ![0, 1] bcast_S2048x1_S2048x9_0_1 (broadcastInDim S2048x1 ![0] bcast_S2048_S2048x1_0 v24))

/-- q: the softmax over the nine filters of the clipped scores of the weighted averages. -/
def qOf (sen : FVec F S2048x300 .f32) (w : FVec F S9x300 .f32) (b : FVec F S9 .f32) : FVec F S2048x9 .f32 :=
  have v12 : FVec F S2048x9 .f32 := Host.dotGeneral dot_S2048x300_S300x9_S2048x9_1_0_0_1_n_n none sen (transpose S300x9 [1, 0] w transposes_S9x300_S300x9_1_0)
  have v14 : FVec F S2048x9 .f32 := broadcastInDim S2048x9 ![0, 1] bcast_S1x9_S2048x9_0_1 (broadcastInDim S1x9 ![1] bcast_S9_S1x9_1 b)
  softmax9 (maximumf (addf v12 v14) (broadcastInDim S2048x9 ![] bcast_S_S2048x9 (constant S_ .f32 0x00000000#32)))

/-- pred: the softmax over the ten classes of the plain averages' linear scores. -/
def predOf (mean : FVec F S2048x300 .f32) (wk : FVec F S300x10 .f32) (bk : FVec F S10 .f32) : FVec F S2048x10 .f32 :=
  have v28 : FVec F S2048x10 .f32 := Host.dotGeneral dot_S2048x300_S300x10_S2048x10_1_0_0_1_n_n none mean wk
  have v31 : FVec F S2048x10 .f32 := addf v28 (broadcastInDim S2048x10 ![0, 1] bcast_S1x10_S2048x10_0_1 (broadcastInDim S1x10 ![1] bcast_S10_S1x10_1 bk))
  have v32 : FVec F S2048 .f32 := Host.reduce FloatOps.maximumf v31 (constant S_ .f32 0xFF800000#32) reducesTo_S2048x10_S2048_d1 h_S_
  have v34 : FVec F S2048 .f32 := maximumf (broadcastInDim S2048 ![] bcast_S_S2048 (constant S_ .f32 0xFF800000#32)) v32
  have v36 : FVec F S2048x10 .f32 := broadcastInDim S2048x10 ![0, 1] bcast_S2048x1_S2048x10_0_1 (broadcastInDim S2048x1 ![0] bcast_S2048_S2048x1_0 v34)
  have v38 : FVec F S2048x10 .f32 := Host.exp (subf v31 v36)
  have v39 : FVec F S2048 .f32 := Host.reduceAdd v38 (constant S_ .f32 0x00000000#32) reducesTo_S2048x10_S2048_d1 h_S_
  Host.divf v38 (broadcastInDim S2048x10 ![0, 1] bcast_S2048x1_S2048x10_0_1 (broadcastInDim S2048x1 ![0] bcast_S2048_S2048x1_0 v39))

/-- h: the entropy of each row of pred over its positive entries, divided by log 10. -/
def entropyOf (pred : FVec F S2048x10 .f32) : FVec F S2048 .f32 :=
  have zero10 : FVec F S2048x10 .f32 := broadcastInDim S2048x10 ![] bcast_S_S2048x10 (constant S_ .f32 0x00000000#32)
  have v45 : FVec F S2048x10 .f32 := select (cmpf .ogt pred zero10) pred (broadcastInDim S2048x10 ![] bcast_S_S2048x10 (constant S_ .f32 0x3F800000#32))
  have v49 : FVec F S2048x10 .f32 := mulf pred (Host.log v45)
  have v50 : FVec F S2048x10 .f32 := select (cmpf .ogt pred zero10) v49 zero10
  have v51 : FVec F S2048 .f32 := Host.reduceAdd v50 (constant S_ .f32 0x00000000#32) reducesTo_S2048x10_S2048_d1 h_S_
  Host.divf (Host.negf v51) (broadcastInDim S2048 ![] bcast_S_S2048 (Host.log (constant S_ .f32 0x41200000#32)))

/-- null: (h − ½) / ½ where h ≥ ½, else 0, as a column. -/
def nullOf (h : FVec F S2048 .f32) : FVec F S2048x1 .f32 :=
  have half : FVec F S2048 .f32 := broadcastInDim S2048 ![] bcast_S_S2048 (constant S_ .f32 0x3F000000#32)
  have v62 : FVec F S2048 .f32 := Host.divf (subf h half) half
  broadcastInDim S2048x1 ![0] bcast_S2048_S2048x1_0
    (select (cmpf .oge h half) v62 (broadcastInDim S2048 ![] bcast_S_S2048 (constant S_ .f32 0x00000000#32)))

/-- q⁺: q scaled by 1 − null with the null column put in fifth place. -/
def qPlusOf (q : FVec F S2048x9 .f32) (null : FVec F S2048x1 .f32) : FVec F S2048x10 .f32 :=
  have v66 : FVec F S2048x1 .f32 := subf (broadcastInDim S2048x1 ![] bcast_S_S2048x1 (constant S_ .f32 0x3F800000#32)) null
  have v68 : FVec F S2048x9 .f32 := mulf q (broadcastInDim S2048x9 ![0, 1] bcast_S2048x1_S2048x9_0_1 v66)
  concatenate S2048x10 1 [⟨S2048x4, extractStridedSlice S2048x4 ![0, 0] v68 slices_S2048x9_S2048x4_0_0⟩, ⟨S2048x1, null⟩,
    ⟨S2048x5, extractStridedSlice S2048x5 ![0, 4] v68 slices_S2048x9_S2048x5_0_4⟩] concatenates_S2048x4_S2048x1_S2048x5_S2048x10_d1

/-- p: q⁺ squared over its column sums, each row then divided by its sum. -/
def pOf (qp : FVec F S2048x10 .f32) : FVec F S2048x10 .f32 :=
  have v72 : FVec F S10 .f32 := Host.reduceAdd qp (constant S_ .f32 0x00000000#32) reducesTo_S2048x10_S10_d0 h_S_
  have v76 : FVec F S2048x10 .f32 := Host.divf (mulf qp qp) (broadcastInDim S2048x10 ![0, 1] bcast_S1x10_S2048x10_0_1 (broadcastInDim S1x10 ![1] bcast_S10_S1x10_1 v72))
  have v77 : FVec F S2048 .f32 := Host.reduceAdd v76 (constant S_ .f32 0x00000000#32) reducesTo_S2048x10_S2048_d1 h_S_
  Host.divf v76 (broadcastInDim S2048x10 ![0, 1] bcast_S2048x1_S2048x10_0_1 (broadcastInDim S2048x1 ![0] bcast_S2048_S2048x1_0 v77))

/-- The second result from the two summaries and the four small parameters. -/
def qPlus (sen mean : FVec F S2048x300 .f32) (w : FVec F S9x300 .f32) (b : FVec F S9 .f32) (wk : FVec F S300x10 .f32) (bk : FVec F S10 .f32) :
    FVec F S2048x10 .f32 :=
  qPlusOf (qOf sen w b) (nullOf (entropyOf (predOf mean wk bk)))

/-- The first result. -/
def pRes (sen mean : FVec F S2048x300 .f32) (w : FVec F S9x300 .f32) (b : FVec F S9 .f32) (wk : FVec F S300x10 .f32) (bk : FVec F S10 .f32) :
    FVec F S2048x10 .f32 :=
  pOf (qPlus sen mean w b wk bk)

end Cert.Stages

end
-- ==== Proof.LibNary3.lean ====
/-
  A host operation with three operands named by a literal family of buffers (a concatenate of three pieces), read at its
  result buffer: the operation's function applied to the three operands' contents, each read AT ITS OWN BUFFER, so that
  the contents of each operand can in turn be rewritten to what the line that wrote it computed.  (The general
  statement reads operand k at the k-th buffer of the family under a binder, where no such rewriting applies.)
-/
import Idealize.ShloMosaic.Lib.StableHlo.Run

noncomputable section

namespace Idealize.ShloMosaic.StableHlo

variable {τ : Topo} {sig : RefSig} {Val : EltTy → Type} {x a b y : Ref sig .tc}

/-- The result of a three-operand line over the literal buffers x, a, b: its function of their three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result buffer left out of the rewriting index, for use in one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KernelIdealTailQ.lean ====
/-
  The ninety-seven host lines after the pallas_call, read back at the second result's buffer.

  Whatever the buffers hold when those lines start, the second result ends as q⁺ of the contents of the call's two
  result arrays (the row summaries), the filters, the biases and the classifier's two parameters: each line's result
  is its operation of its operands' contents, and the lines compose to the six tail functions.
-/
import proofs.«160721_j61581241090537_1_alg».proof.Proof.KernelIdealRegion
import proofs.«160721_j61581241090537_1_alg».proof.Proof.Stages
import proofs.«160721_j61581241090537_1_alg».proof.Proof.LibNary3

set_option maxRecDepth 200000

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Region

variable {F : FTy → Type} [FloatOps F]

set_option maxHeartbeats 8000000 in
/-- After the later lines the second result's buffer holds q⁺ of what the lines found in the two result arrays and the four parameter buffers. -/
theorem later_v71 (X : Valuation τ sig (Elt F)) :
    StableHlo.after (laterLines (F := F)).flatten X (Proc.devRef .tc main_v71)
      = Cert.Stages.qPlus (X (Proc.devRef .tc main_v10_0)) (X (Proc.devRef .tc main_v10_1)) (X (Proc.devRef .tc main_arg2))
          (X (Proc.devRef .tc main_arg3)) (X (Proc.devRef .tc main_arg4)) (X (Proc.devRef .tc main_arg5)) := by
  simp only [laterLines, hostOps1, hostOps1_1, hostOps1_2, hostOps1_3, hostOps1_4, hostOps1_5, hostOps1_6, hostOps1_7, hostOps1_8,
    List.flatten_cons, List.flatten_nil, List.append_nil, List.cons_append, List.nil_append]
  simp (disch := decide) only [after_cons, after_nil,
      nullary_result', unary_result', binary_result', ternary_result', reshape_result', nary3_result',
      nullary_result_ne', unary_result_ne', binary_result_ne', ternary_result_ne', reshape_result_ne', nary_result_ne']
  rfl

end Cert.KernelIdeal.Tail

end
-- ==== Proof.KernelIdealTailP.lean ====
/-
  The ninety-seven host lines after the pallas_call, read back at the first result's buffer.

  Whatever the buffers hold when those lines start, the first result ends as p of the contents of the call's two
  result arrays (the row summaries), the filters, the biases and the classifier's two parameters: each line's result
  is its operation of its operands' contents, and the lines compose to the six tail functions.
-/
import proofs.«160721_j61581241090537_1_alg».proof.Proof.KernelIdealRegion
import proofs.«160721_j61581241090537_1_alg».proof.Proof.Stages
import proofs.«160721_j61581241090537_1_alg».proof.Proof.LibNary3

set_option maxRecDepth 200000

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Region

variable {F : FTy → Type} [FloatOps F]

set_option maxHeartbeats 8000000 in
/-- After the later lines the first result's buffer holds p of what the lines found in the two result arrays and the four parameter buffers. -/
theorem later_v80 (X : Valuation τ sig (Elt F)) :
    StableHlo.after (laterLines (F := F)).flatten X (Proc.devRef .tc main_v80)
      = Cert.Stages.pRes (X (Proc.devRef .tc main_v10_0)) (X (Proc.devRef .tc main_v10_1)) (X (Proc.devRef .tc main_arg2))
          (X (Proc.devRef .tc main_arg3)) (X (Proc.devRef .tc main_arg4)) (X (Proc.devRef .tc main_arg5)) := by
  simp only [laterLines, hostOps1, hostOps1_1, hostOps1_2, hostOps1_3, hostOps1_4, hostOps1_5, hostOps1_6, hostOps1_7, hostOps1_8,
    List.flatten_cons, List.flatten_nil, List.append_nil, List.cons_append, List.nil_append]
  simp (disch := decide) only [after_cons, after_nil,
      nullary_result', unary_result', binary_result', ternary_result', reshape_result', nary3_result',
      nullary_result_ne', unary_result_ne', binary_result_ne', ternary_result_ne', reshape_result_ne', nary_result_ne']
  rfl

end Cert.KernelIdeal.Tail

end
-- ==== Proof.KernelIdealValue.lean ====
/-
  The kernel's program, run on the extended reals, with its two results named.

  The pallas_call leaves the specification's weighted and plain averages of the embeddings it was handed in its two
  result arrays; the ninety-seven later lines turn those into p and q⁺.  The embeddings are those of the launched token
  ids in the launched table, the filters and biases the launched ones: so the two results are p and q⁺ of the
  specification's two summaries of the arguments.
-/
import proofs.«160721_j61581241090537_1_alg».proof.Proof.KernelIdealRegion
import proofs.«160721_j61581241090537_1_alg».proof.Proof.KernelIdealArrays
import proofs.«160721_j61581241090537_1_alg».proof.Proof.KernelIdealEntry
import proofs.«160721_j61581241090537_1_alg».proof.Proof.KernelIdealTailQ
import proofs.«160721_j61581241090537_1_alg».proof.Proof.KernelIdealTailP
import proofs.«160721_j61581241090537_1_alg».proof.Proof.Stages
import proofs.«160721_j61581241090537_1_alg».proof.Proof.Spec

set_option maxRecDepth 16384

noncomputable section

namespace Cert.KernelIdeal.ValueRun

open Idealize.ShloMosaic Idealize.ShloMosaic.TcCoe Idealize.SL.Sem
open Cert.KernelIdeal Cert.KernelIdeal.Gen Cert.KernelIdeal.Region Cert.KernelIdeal.Arrays
open Idealize.ShloMosaic.Pipeline (Dat)

variable (m : (ℓ : Loc nD τ sig) → Buf (Elt Ideal) ℓ) (ρ : Dev nD → PrngReg)

/-- The embeddings of the launched token ids in the launched table. -/
abbrev emb (c : Dev nD) : S2048x128x300.Idx → EReal :=
  Entry.embOf (F := Ideal) (m ((c : Thread nD τ).loc main_arg1)) (m ((c : Thread nD τ).loc main_arg0))

/-- The specification's weighted averages of the arguments. -/
abbrev senK (c : Dev nD) : S2048x300.Idx → EReal :=
  Cert.Spec.sen (emb m c) (m ((c : Thread nD τ).loc main_arg2)) (m ((c : Thread nD τ).loc main_arg3))
/-- The specification's plain averages of the arguments. -/
abbrev meanK (c : Dev nD) : S2048x300.Idx → EReal := Cert.Spec.mean (emb m c)

/-- What the later lines find where the region ran: each array of the pipeline at what the region left in it, -/
abbrev atExit (c : Dev nD) : Valuation τ sig (Elt Ideal) :=
  Pipeline.withArrays (cfgs 0).spec c (V0 m c) fun w => (dats m 0 c).arrAt w (cfgs 0).N

/-- the first result array at the weighted averages, -/
theorem exit_v10_0 (c : Dev nD) : atExit m c (Proc.devRef .tc main_v10_0) = senK m c := by
  refine (Pipeline.withArrays_arr spec0 launch0.win.arr_inj c _ _ 3).trans ?_
  rw [final_sen, biasK_eq]
  show Cert.Spec.sen (V m c main_v8) (V m c main_arg2) _ = _
  rw [Entry.V_main_v8, V_main_arg2]

/-- the second at the plain averages, -/
theorem exit_v10_1 (c : Dev nD) : atExit m c (Proc.devRef .tc main_v10_1) = meanK m c := by
  refine (Pipeline.withArrays_arr spec0 launch0.win.arr_inj c _ _ 4).trans ?_
  rw [final_mean]
  show Cert.Spec.mean (V m c main_v8) = _
  rw [Entry.V_main_v8]

/-- the filters, an array the region only reads, as launched, -/
theorem exit_arg2 (c : Dev nD) : atExit m c (Proc.devRef .tc main_arg2) = m ((c : Thread nD τ).loc main_arg2) :=
  (Pipeline.withArrays_arr spec0 launch0.win.arr_inj c _ _ 1).trans
    (((dats m 0 c).arrAt_in 1 rfl _).trans ((A_eq m c 1).trans (V_main_arg2 m c)))

/-- and the other three parameters, which bypass the region, as launched. -/
theorem exit_arg3 (c : Dev nD) : atExit m c (Proc.devRef .tc main_arg3) = m ((c : Thread nD τ).loc main_arg3) :=
  (Pipeline.withArrays_of_ne _ c (V0 m c) _ main_arg3 (by decide)).trans (V_main_arg3 m c)
theorem exit_arg4 (c : Dev nD) : atExit m c (Proc.devRef .tc main_arg4) = m ((c : Thread nD τ).loc main_arg4) :=
  (Pipeline.withArrays_of_ne _ c (V0 m c) _ main_arg4 (by decide)).trans (V_main_arg4 m c)
theorem exit_arg5 (c : Dev nD) : atExit m c (Proc.devRef .tc main_arg5) = m ((c : Thread nD τ).loc main_arg5) :=
  (Pipeline.withArrays_of_ne _ c (V0 m c) _ main_arg5 (by decide)).trans (V_main_arg5 m c)

/-- The first result after the later lines: p of the two summaries. -/
theorem end_v80 (c : Dev nD) :
    Pipeline.afterTail₀ cfgs (dats m) 0 (V0 m) laterLines c main_v80
      = Cert.Stages.pRes (F := Ideal) (senK m c) (meanK m c) (m ((c : Thread nD τ).loc main_arg2)) (m ((c : Thread nD τ).loc main_arg3))
          (m ((c : Thread nD τ).loc main_arg4)) (m ((c : Thread nD τ).loc main_arg5)) := by
  unfold Pipeline.afterTail₀
  show StableHlo.after (laterLines (F := Ideal)).flatten (atExit m c) (Proc.devRef .tc main_v80) = _
  rw [Tail.later_v80, exit_v10_0, exit_v10_1, exit_arg2, exit_arg3, exit_arg4, exit_arg5]

/-- The second result after the later lines: q⁺ of the two summaries. -/
theorem end_v71 (c : Dev nD) :
    Pipeline.afterTail₀ cfgs (dats m) 0 (V0 m) laterLines c main_v71
      = Cert.Stages.qPlus (F := Ideal) (senK m c) (meanK m c) (m ((c : Thread nD τ).loc main_arg2)) (m ((c : Thread nD τ).loc main_arg3))
          (m ((c : Thread nD τ).loc main_arg4)) (m ((c : Thread nD τ).loc main_arg5)) := by
  unfold Pipeline.afterTail₀
  show StableHlo.after (laterLines (F := Ideal)).flatten (atExit m c) (Proc.devRef .tc main_v71) = _
  rw [Tail.later_v71, exit_v10_0, exit_v10_1, exit_arg2, exit_arg3, exit_arg4, exit_arg5]

/-- Every weakly fair execution of the kernel's program terminates with its two results at p and q⁺ of the
    specification's summaries of its arguments, and its six arguments unchanged. -/
theorem run : θ_run defs (onTc (τ := τ) (main (F := Ideal))) ⟨m, fun _ => 0, ρ⟩ fun r => ∀ c : Dev nD,
      r.2.mem ((c.tc : Thread nD τ).loc main_v80)
          = Cert.Stages.pRes (F := Ideal) (senK m c) (meanK m c) (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v71)
          = Cert.Stages.qPlus (F := Ideal) (senK m c) (meanK m c) (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v80 (Pipeline.mem_restRefs_of main_v80 (by decide) (by decide))).trans (end_v80 m c),
     ((h c).2 main_v71 (Pipeline.mem_restRefs_of main_v71 (by decide) (by decide))).trans (end_v71 m c),
     kept_of_post m (dats m) (A_eq m) r h c⟩)
    (run_main (F := Ideal) m ρ)

end Cert.KernelIdeal.ValueRun

end
-- ==== Proof.ReferenceFront.lean ====
/-
  The reference's first lines, as functions of the gathered embeddings, and what they compute index by index.

  The reference looks every token's row up in the table (a negative token id first wrapped by the table's height),
  contracts each token's embedding with the nine filters, adds the biases, clips at zero, takes the largest of the nine
  scores as the token's weight, and averages the embeddings over the 128 positions of a batch row, once weighted and
  once plainly.  On the extended reals these are exactly the sums and the maximum of the specification: the
  contraction is a sum over the 300 features, the host's reductions a maximum started from −∞ and a sum started from 0.
-/
import proofs.«160721_j61581241090537_1_alg».proof.ReferenceIdeal
import proofs.«160721_j61581241090537_1_alg».proof.Proof.Gen.ReferenceIdeal
import proofs.«160721_j61581241090537_1_alg».proof.Proof.Spec
import Idealize.ShloMosaic.PureOps.Ideal.Laws
import Idealize.ShloMosaic.PureOps.Reduce
import Idealize.ShloMosaic.Lib.IdealHost
import Idealize.ShloMosaic.Lib.ValueIdx
import Idealize.ShloMosaic.Lib.ValueLayout
import Idealize.ShloMosaic.Lib.Pipeline.Value

noncomputable section

namespace Cert.ReferenceIdeal.Front

open Idealize.ShloMosaic Idealize.SL.Sem Idealize.ShloMosaic.ValueIdx Cert.ReferenceIdeal Cert.ReferenceIdeal.Facts₀

variable {F : FTy → Type} [FloatOps F]

/-- The token ids laid out [batch row, position, 1], a negative id wrapped by the table's 50000 rows. -/
def tokens (txt : (⟨S128x2048, .i32⟩ : BufTy).Contents (Elt F)) : (⟨S2048x128x1, .i32⟩ : BufTy).Contents (Elt F) :=
  have v0 : (⟨S2048x128, .i32⟩ : BufTy).Contents (Elt F) := transpose S2048x128 [1, 0] txt transposes_S128x2048_S2048x128_1_0
  have v2 : (⟨S2048x128, .i1⟩ : BufTy).Contents (Elt F) := cmpi .slt v0 (broadcastInDim S2048x128 ![] bcast_S_S2048x128 (constantI S_ 32 0#32))
  have v4 : (⟨S2048x128, .i32⟩ : BufTy).Contents (Elt F) := addi v0 (broadcastInDim S2048x128 ![] bcast_S_S2048x128 (constantI S_ 32 50000#32))
  broadcastInDim S2048x128x1 ![0, 1] bcast_S2048x128_S2048x128x1_0_1 (select v2 v4 v0)

/-- Every token's embedding: its row of the table. -/
def embOf (tbl : FVec F S50000x300 .f32) (txt : (⟨S128x2048, .i32⟩ : BufTy).Contents (Elt F)) : FVec F S2048x128x300 .f32 :=
  Host.gather gather_S50000x300_S2048x128x1_S2048x128x300_2_0_n_n_0_2_1300 tbl (tokens txt)

/-- Every token's weight: the largest of its nine clipped filter scores. -/
def weightsOf (emb : FVec F S2048x128x300 .f32) (w : FVec F S9x300 .f32) (b : FVec F S9 .f32) : FVec F S2048x128 .f32 :=
  have v8 : FVec F S2048x128x9 .f32 := Host.dotGeneral dot_S2048x128x300_S9x300_S2048x128x9_2_1_01_0_n_n none emb w
  have v10 : FVec F S2048x128x9 .f32 := broadcastInDim S2048x128x9 ![0, 1, 2] bcast_S1x1x9_S2048x128x9_0_1_2 (broadcastInDim S1x1x9 ![2] bcast_S9_S1x1x9_2 b)
  have v12 : FVec F S2048x128x9 .f32 := maximumf (addf v8 v10) (broadcastInDim S2048x128x9 ![] bcast_S_S2048x128x9 (constant S_ .f32 0x00000000#32))
  Host.reduce FloatOps.maximumf v12 (constant S_ .f32 0xFF800000#32) reducesTo_S2048x128x9_S2048x128_d2 h_S_

/-- The weighted averages of the embeddings over the positions. -/
def senOf (emb : FVec F S2048x128x300 .f32) (w : FVec F S9x300 .f32) (b : FVec F S9 .f32) : FVec F S2048x300 .f32 :=
  have v15 : FVec F S2048x128x300 .f32 := broadcastInDim S2048x128x300 ![0, 1, 2] bcast_S2048x128x1_S2048x128x300_0_1_2
    (broadcastInDim S2048x128x1 ![0, 1] bcast_S2048x128_S2048x128x1_0_1 (weightsOf emb w b))
  have v17 : FVec F S2048x300 .f32 := Host.reduceAdd (mulf emb v15) (constant S_ .f32 0x00000000#32) reducesTo_S2048x128x300_S2048x300_d1 h_S_
  Host.divf v17 (broadcastInDim S2048x300 ![] bcast_S_S2048x300 (constant S_ .f32 0x43000000#32))

/-- The plain averages of the embeddings over the positions. -/
def meanOf (emb : FVec F S2048x128x300 .f32) : FVec F S2048x300 .f32 :=
  Host.divf (Host.reduceAdd emb (constant S_ .f32 0x00000000#32) reducesTo_S2048x128x300_S2048x300_d1 h_S_)
    (broadcastInDim S2048x300 ![] bcast_S_S2048x300 (constant S_ .f32 0x43000000#32))

/-- The averages' divisor: the scalar constant spread over [2048, 300] reads the constant at every index. -/
theorem bcastConst_rows (c : BitVec 32) (j : S2048x300.Idx) :
    broadcastInDim S2048x300 ![] bcast_S_S2048x300 (constant (F := Ideal) S_ .f32 c) j = Ideal.ofBits .f32 c := rfl

/-- The positions axis can be summed out of [2048, 128, 300], leaving [2048, 300]. -/
theorem reduces_pos : S2048x128x300.Reduces [1] S2048x300 := by decide

/-- Inserting position s into the index (i, e) gives (i, s, e). -/
theorem lift_pos (i : Fin 2048) (s : Fin 128) (e : Fin 300) : reduces_pos.lift (ix2 i e) s = ix3 i s e := by
  funext c
  apply Fin.ext
  match c with
  | ⟨0, _⟩ => rfl
  | ⟨1, _⟩ => rfl
  | ⟨2, _⟩ => rfl

/-- The host's sum over the positions started from zero, read at (i, e): the sum over s of the summand at (i, s, e). -/
theorem reduceAdd_pos_apply (x : S2048x128x300.Idx → EReal) (i : Fin 2048) (e : Fin 300) :
    Host.reduceAdd (F := Ideal) (φ := .f32) x (constant (F := Ideal) S_ .f32 0x00000000#32)
        reducesTo_S2048x128x300_S2048x300_d1 h_S_ (ix2 i e)
      = ∑ s : Fin 128, x (ix3 i s e) := by
  rw [hostReduceAdd_apply, Ideal.hostReduceAdd_single _ reduces_pos, constant_apply, Ideal.ofBits_zero_f32, zero_add]
  exact Finset.sum_congr rfl fun s _ => congrArg x (lift_pos i s e)

/-- The scores' contraction has one contracted axis, of 300 features: a contraction index is a feature. -/
def featEquiv : dot_S2048x128x300_S9x300_S2048x128x9_2_1_01_0_n_n.contr.Idx ≃ Fin 300 :=
  contrEquiv1 dot_S2048x128x300_S9x300_S2048x128x9_2_1_01_0_n_n 300 rfl rfl

/-- The embedding operand's index of the contraction at (i, s, f): its batch-row coordinate is i. -/
theorem dot_lhs0 (i : Fin 2048) (s : Fin 128) (f : Fin 9) (k : dot_S2048x128x300_S9x300_S2048x128x9_2_1_01_0_n_n.contr.Idx) :
    (dot_S2048x128x300_S9x300_S2048x128x9_2_1_01_0_n_n.lhsIdx (ix3 i s f) k (0 : Fin 3)).val = i.val := by
  simp [DotDims.lhsIdx, dot_S2048x128x300_S9x300_S2048x128x9_2_1_01_0_n_n]; rfl

/-- … its position coordinate is s. -/
theorem dot_lhs1 (i : Fin 2048) (s : Fin 128) (f : Fin 9) (k : dot_S2048x128x300_S9x300_S2048x128x9_2_1_01_0_n_n.contr.Idx) :
    (dot_S2048x128x300_S9x300_S2048x128x9_2_1_01_0_n_n.lhsIdx (ix3 i s f) k (1 : Fin 3)).val = s.val := by
  simp [DotDims.lhsIdx, dot_S2048x128x300_S9x300_S2048x128x9_2_1_01_0_n_n]; rfl

/-- … and its feature coordinate is the contraction index's. -/
theorem dot_lhs2 (i : Fin 2048) (s : Fin 128) (f : Fin 9) (e : Fin 300) :
    (dot_S2048x128x300_S9x300_S2048x128x9_2_1_01_0_n_n.lhsIdx (ix3 i s f) (featEquiv.symm e) (2 : Fin 3)).val = e.val :=
  (DotDims.lhsIdx_val_of_single dot_S2048x128x300_S9x300_S2048x128x9_2_1_01_0_n_n (cl := (2 : Fin 3)) rfl (ix3 i s f) (featEquiv.symm e)).trans
    (contrEquiv1_symm_val dot_S2048x128x300_S9x300_S2048x128x9_2_1_01_0_n_n 300 rfl rfl e)

/-- The filter operand's index of the contraction at (i, s, f): its filter coordinate is f. -/
theorem dot_rhs0 (i : Fin 2048) (s : Fin 128) (f : Fin 9) (k : dot_S2048x128x300_S9x300_S2048x128x9_2_1_01_0_n_n.contr.Idx) :
    (dot_S2048x128x300_S9x300_S2048x128x9_2_1_01_0_n_n.rhsIdx (ix3 i s f) k (0 : Fin 2)).val = f.val := by
  simp [DotDims.rhsIdx, dot_S2048x128x300_S9x300_S2048x128x9_2_1_01_0_n_n]; rfl

/-- … and its feature coordinate is the contraction index's. -/
theorem dot_rhs1 (i : Fin 2048) (s : Fin 128) (f : Fin 9) (e : Fin 300) :
    (dot_S2048x128x300_S9x300_S2048x128x9_2_1_01_0_n_n.rhsIdx (ix3 i s f) (featEquiv.symm e) (1 : Fin 2)).val = e.val :=
  (DotDims.rhsIdx_val_of_single dot_S2048x128x300_S9x300_S2048x128x9_2_1_01_0_n_n (cr := (1 : Fin 2)) rfl (ix3 i s f) (featEquiv.symm e)).trans
    (contrEquiv1_symm_val dot_S2048x128x300_S9x300_S2048x128x9_2_1_01_0_n_n 300 rfl rfl e)

/-- The embedding operand of the contraction at (i, s, f) and feature e is read at (i, s, e). -/
theorem dot_lhsIdx (i : Fin 2048) (s : Fin 128) (f : Fin 9) (e : Fin 300) :
    dot_S2048x128x300_S9x300_S2048x128x9_2_1_01_0_n_n.lhsIdx (ix3 i s f) (featEquiv.symm e) = ix3 i s e := by
  funext ax
  apply Fin.ext
  match ax with
  | ⟨0, _⟩ => exact dot_lhs0 i s f _
  | ⟨1, _⟩ => exact dot_lhs1 i s f _
  | ⟨2, _⟩ => exact dot_lhs2 i s f e

/-- The filter operand of the contraction at (i, s, f) and feature e is read at (f, e). -/
theorem dot_rhsIdx (i : Fin 2048) (s : Fin 128) (f : Fin 9) (e : Fin 300) :
    dot_S2048x128x300_S9x300_S2048x128x9_2_1_01_0_n_n.rhsIdx (ix3 i s f) (featEquiv.symm e) = ix2 f e := by
  funext ax
  apply Fin.ext
  match ax with
  | ⟨0, _⟩ => exact dot_rhs0 i s f _
  | ⟨1, _⟩ => exact dot_rhs1 i s f e

/-- The host's contraction of the embeddings with the filters, read at (i, s, f): the dot product over the features. -/
theorem dot_apply (emb : S2048x128x300.Idx → EReal) (w : S9x300.Idx → EReal) (i : Fin 2048) (s : Fin 128) (f : Fin 9) :
    Host.dotGeneral (F := Ideal) (φ₁ := .f32) (φ₂ := .f32) dot_S2048x128x300_S9x300_S2048x128x9_2_1_01_0_n_n none emb w (ix3 i s f)
      = ∑ e : Fin 300, emb (ix3 i s e) * w (ix2 f e) := by
  show FloatOps.dotGeneral (F := Ideal) (φ₁ := .f32) (φ₂ := .f32) dot_S2048x128x300_S9x300_S2048x128x9_2_1_01_0_n_n none .single emb w (ix3 i s f) = _
  rw [Ideal.dotGeneral_apply, ← Equiv.sum_comp featEquiv.symm]
  exact Finset.sum_congr rfl fun e _ => by rw [dot_lhsIdx, dot_rhsIdx]

/-- The biases spread over [2048, 128, 9] (through [1, 1, 9]) read the bias of the index's filter. -/
theorem bias_apply (b : S9.Idx → EReal) (i : Fin 2048) (s : Fin 128) (f : Fin 9) :
    broadcastInDim S2048x128x9 ![0, 1, 2] bcast_S1x1x9_S2048x128x9_0_1_2
        (broadcastInDim S1x1x9 ![2] bcast_S9_S1x1x9_2 b) (ix3 i s f) = b (ix1 f) := by
  rw [broadcastInDim_apply ![0, 1, 2] bcast_S1x1x9_S2048x128x9_0_1_2 _ (ix3 i s f) (ix3 (0 : Fin 1) (0 : Fin 1) f)
    (fun a => by
      match a with
      | ⟨0, _⟩ => rfl
      | ⟨1, _⟩ => rfl
      | ⟨2, _⟩ => rfl)]
  exact broadcastInDim_apply ![2] bcast_S9_S1x1x9_2 b (ix3 (0 : Fin 1) (0 : Fin 1) f) (ix1 f)
    (fun a => by
      match a with
      | ⟨0, _⟩ => rfl)

/-- The clipped scores of the reference, read at (i, s, f): the specification's score of token (i, s) by filter f. -/
theorem scores_apply (emb : S2048x128x300.Idx → EReal) (w : S9x300.Idx → EReal) (b : S9.Idx → EReal)
    (i : Fin 2048) (s : Fin 128) (f : Fin 9) :
    maximumf (F := Ideal) (φ := .f32)
        (addf (Host.dotGeneral (F := Ideal) (φ₁ := .f32) (φ₂ := .f32) dot_S2048x128x300_S9x300_S2048x128x9_2_1_01_0_n_n none emb w)
          (broadcastInDim S2048x128x9 ![0, 1, 2] bcast_S1x1x9_S2048x128x9_0_1_2 (broadcastInDim S1x1x9 ![2] bcast_S9_S1x1x9_2 b)))
        (broadcastInDim S2048x128x9 ![] bcast_S_S2048x128x9 (constant (F := Ideal) S_ .f32 0x00000000#32)) (ix3 i s f)
      = Cert.Spec.score emb w b i s f := by
  rw [maximumf_apply, addf_apply, dot_apply, bias_apply]
  show max _ (Ideal.ofBits .f32 0x00000000#32) = _
  rw [Ideal.ofBits_zero_f32]
  rfl

/-- The filters axis can be folded out of [2048, 128, 9], leaving [2048, 128]. -/
theorem reduces_fil : S2048x128x9.Reduces [2] S2048x128 := by decide

/-- Inserting filter f into the index (i, s) gives (i, s, f). -/
theorem lift_fil (i : Fin 2048) (s : Fin 128) (f : Fin 9) : reduces_fil.lift (ix2 i s) f = ix3 i s f := by
  funext c
  apply Fin.ext
  match c with
  | ⟨0, _⟩ => rfl
  | ⟨1, _⟩ => rfl
  | ⟨2, _⟩ => rfl

/-- The reference's weights are the maximum over the filters axis, started from −∞, of its clipped scores. -/
theorem weightsOf_def (emb : S2048x128x300.Idx → EReal) (w : S9x300.Idx → EReal) (b : S9.Idx → EReal) :
    weightsOf (F := Ideal) emb w b
      = Host.reduce (FloatOps.maximumf (F := Ideal) (φ := .f32))
          (maximumf (F := Ideal) (φ := .f32)
            (addf (Host.dotGeneral (F := Ideal) (φ₁ := .f32) (φ₂ := .f32) dot_S2048x128x300_S9x300_S2048x128x9_2_1_01_0_n_n none emb w)
              (broadcastInDim S2048x128x9 ![0, 1, 2] bcast_S1x1x9_S2048x128x9_0_1_2 (broadcastInDim S1x1x9 ![2] bcast_S9_S1x1x9_2 b)))
            (broadcastInDim S2048x128x9 ![] bcast_S_S2048x128x9 (constant (F := Ideal) S_ .f32 0x00000000#32)))
          (constant (F := Ideal) S_ .f32 0xFF800000#32) reducesTo_S2048x128x9_S2048x128_d2 h_S_ := rfl

/-- The reference's weight of token (i, s) is the specification's: the largest of its nine scores, from −∞. -/
theorem weightsOf_apply (emb : S2048x128x300.Idx → EReal) (w : S9x300.Idx → EReal) (b : S9.Idx → EReal)
    (i : Fin 2048) (s : Fin 128) :
    weightsOf (F := Ideal) emb w b (ix2 i s) = Cert.Spec.weight emb w b i s := by
  rw [weightsOf_def, Host.reduce_eq_fold_single _ _ _ reducesTo_S2048x128x9_S2048x128_d2 reduces_fil]
  unfold Cert.Spec.weight
  refine congrArg (fun g => (Finset.univ : Finset (Fin 9)).fold max (Ideal.ofBits .f32 0xFF800000#32) g) ?_
  funext f
  exact (congrArg _ (lift_fil i s f)).trans (scores_apply emb w b i s f)

/-- The weights spread over [2048, 128, 300] (through [2048, 128, 1]) read the weight of the index's token. -/
theorem spread_apply (x : S2048x128.Idx → EReal) (i : Fin 2048) (s : Fin 128) (e : Fin 300) :
    broadcastInDim S2048x128x300 ![0, 1, 2] bcast_S2048x128x1_S2048x128x300_0_1_2
        (broadcastInDim S2048x128x1 ![0, 1] bcast_S2048x128_S2048x128x1_0_1 x) (ix3 i s e) = x (ix2 i s) := by
  rw [broadcastInDim_apply ![0, 1, 2] bcast_S2048x128x1_S2048x128x300_0_1_2 _ (ix3 i s e) (ix3 i s (0 : Fin 1))
    (fun a => by
      match a with
      | ⟨0, _⟩ => rfl
      | ⟨1, _⟩ => rfl
      | ⟨2, _⟩ => rfl)]
  exact broadcastInDim_apply ![0, 1] bcast_S2048x128_S2048x128x1_0_1 x (ix3 i s (0 : Fin 1)) (ix2 i s)
    (fun a => by
      match a with
      | ⟨0, _⟩ => rfl
      | ⟨1, _⟩ => rfl)

/-- The reference's weighted averages: the sum over the positions of the embeddings times the spread weights, over 128. -/
theorem senOf_def (emb : S2048x128x300.Idx → EReal) (w : S9x300.Idx → EReal) (b : S9.Idx → EReal) :
    senOf (F := Ideal) emb w b
      = Host.divf (F := Ideal) (φ := .f32)
          (Host.reduceAdd (F := Ideal) (φ := .f32)
            (mulf (F := Ideal) (φ := .f32) emb
              (broadcastInDim S2048x128x300 ![0, 1, 2] bcast_S2048x128x1_S2048x128x300_0_1_2
                (broadcastInDim S2048x128x1 ![0, 1] bcast_S2048x128_S2048x128x1_0_1 (weightsOf (F := Ideal) emb w b))))
            (constant (F := Ideal) S_ .f32 0x00000000#32) reducesTo_S2048x128x300_S2048x300_d1 h_S_)
          (broadcastInDim S2048x300 ![] bcast_S_S2048x300 (constant (F := Ideal) S_ .f32 0x43000000#32)) := rfl

/-- On the extended reals the reference's weighted averages are the specification's. -/
theorem senOf_eq (emb : S2048x128x300.Idx → EReal) (w : S9x300.Idx → EReal) (b : S9.Idx → EReal) :
    senOf (F := Ideal) emb w b = Cert.Spec.sen emb w b := by
  funext j
  obtain ⟨i, e, rfl⟩ : ∃ (i : Fin 2048) (e : Fin 300), j = ix2 i e := ⟨j 0, j 1, eq_ix2 j⟩
  rw [Cert.Spec.sen_apply, senOf_def, hostDivf_apply, reduceAdd_pos_apply, bcastConst_rows]
  unfold Cert.Spec.senAt
  refine congrArg (fun t => Ideal.div t (Ideal.ofBits .f32 0x43000000#32)) ?_
  exact Finset.sum_congr rfl fun s _ => by rw [mulf_apply, spread_apply, weightsOf_apply]

/-- On the extended reals the reference's plain averages are the specification's. -/
theorem meanOf_eq (emb : S2048x128x300.Idx → EReal) : meanOf (F := Ideal) emb = Cert.Spec.mean emb := by
  funext j
  obtain ⟨i, e, rfl⟩ : ∃ (i : Fin 2048) (e : Fin 300), j = ix2 i e := ⟨j 0, j 1, eq_ix2 j⟩
  rw [Cert.Spec.mean_apply]
  unfold meanOf Cert.Spec.meanAt
  rw [hostDivf_apply, reduceAdd_pos_apply, bcastConst_rows]

end Cert.ReferenceIdeal.Front

end
-- ==== Proof.ReferenceRun.lean ====
/-
  The reference's run, read back over named stages.

  The reference is 129 host lines and no kernel: every weakly fair execution runs them in order and ends with each buffer
  at what its line computed.  Read back, its two results are the six tail functions applied to the two row summaries
  its first lines compute from the arguments (the weighted and the plain averages of the gathered embeddings), and the
  six arguments are written by no line.
-/
import proofs.«160721_j61581241090537_1_alg».proof.Proof.ReferenceOps
import proofs.«160721_j61581241090537_1_alg».proof.Proof.ReferenceFront
import proofs.«160721_j61581241090537_1_alg».proof.Proof.Stages
import proofs.«160721_j61581241090537_1_alg».proof.Proof.LibNary3
import Idealize.ShloMosaic.Lib.StableHlo.Run

set_option maxRecDepth 200000

noncomputable section

namespace Cert.ReferenceIdeal.HandRun

open Idealize.ShloMosaic Idealize.ShloMosaic.TcCoe Idealize.SL.Sem Idealize.ShloMosaic.StableHlo
open Cert.ReferenceIdeal Cert.ReferenceIdeal.Gen Cert.ReferenceIdeal.Ops Cert.ReferenceIdeal.Front

variable {F : FTy → Type} [FloatOps F]

/-- The weighted averages the reference computes from buffer contents X at its arguments. -/
def senR (X : Valuation τ sig (Elt F)) : FVec F S2048x300 .f32 :=
  senOf (embOf (X (Proc.devRef .tc main_arg1)) (X (Proc.devRef .tc main_arg0))) (X (Proc.devRef .tc main_arg2)) (X (Proc.devRef .tc main_arg3))

/-- The plain averages the reference computes from buffer contents X at its arguments. -/
def meanR (X : Valuation τ sig (Elt F)) : FVec F S2048x300 .f32 :=
  meanOf (embOf (X (Proc.devRef .tc main_arg1)) (X (Proc.devRef .tc main_arg0)))

/-- Two lists of lines run in order: the second list's run from where the first's ends. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_app l₁ l₂]

/-- The 129 lines run as their first n lines, then the rest. -/
theorem after_split (n : Nat) (X : Valuation τ sig (Elt F)) :
    StableHlo.after (ops (F := F)) X = StableHlo.after ((ops (F := F)).drop n) (StableHlo.after ((ops (F := F)).take n) X) := by
  rw [← after_app, List.take_append_drop]

/-- From any contents V, the lines from the concatenation on leave in the second result's buffer the concatenation of
    V's two slices and null column. -/
theorem tail_v83 (V : Valuation τ sig (Elt F)) :
    StableHlo.after ((ops (F := F)).drop 117) V (Proc.devRef .tc main_v83)
      = concatenate S2048x10 1 [⟨S2048x4, V (Proc.devRef .tc main_v81)⟩, ⟨S2048x1, V (Proc.devRef .tc main_v76)⟩,
          ⟨S2048x5, V (Proc.devRef .tc main_v82)⟩] concatenates_S2048x4_S2048x1_S2048x5_S2048x10_d1 := by
  simp only [List.drop_succ_cons, List.drop_zero]
  simp (disch := decide) only [after_cons, after_nil, nullary_result', unary_result', binary_result', ternary_result', reshape_result', nary3_result', nullary_result_ne', unary_result_ne', binary_result_ne', ternary_result_ne', reshape_result_ne', nary_result_ne']
  rfl

/-- Those lines write none of the concatenation's three operands. -/
theorem tail_keep (V : Valuation τ sig (Elt F)) :
    StableHlo.after ((ops (F := F)).drop 117) V (Proc.devRef .tc main_v81) = V (Proc.devRef .tc main_v81)
    ∧ StableHlo.after ((ops (F := F)).drop 117) V (Proc.devRef .tc main_v76) = V (Proc.devRef .tc main_v76)
    ∧ StableHlo.after ((ops (F := F)).drop 117) V (Proc.devRef .tc main_v82) = V (Proc.devRef .tc main_v82) := by
  simp only [List.drop_succ_cons, List.drop_zero]
  simp (disch := decide) only [after_cons, after_nil, nullary_result_ne', unary_result_ne', binary_result_ne', ternary_result_ne', reshape_result_ne', nary_result_ne']
  exact ⟨trivial, trivial, trivial⟩

/-- From any contents V, the last eleven lines leave p of V's second result in the first result's buffer, and the second
    result's buffer alone. -/
theorem tail_v92 (V : Valuation τ sig (Elt F)) :
    StableHlo.after ((ops (F := F)).drop 118) V (Proc.devRef .tc main_v92) = Cert.Stages.pOf (V (Proc.devRef .tc main_v83))
    ∧ StableHlo.after ((ops (F := F)).drop 118) V (Proc.devRef .tc main_v83) = V (Proc.devRef .tc main_v83) := by
  simp only [List.drop_succ_cons, List.drop_zero]
  simp (disch := decide) only [after_cons, after_nil, nullary_result', unary_result', binary_result', ternary_result', reshape_result', nary3_result', nullary_result_ne', unary_result_ne', binary_result_ne', ternary_result_ne', reshape_result_ne', nary_result_ne']
  exact ⟨rfl, trivial⟩

/-- After the 129 lines the null column's buffer holds null of the entropy of pred of the plain averages. -/
theorem at_v76 (X : Valuation τ sig (Elt F)) :
    StableHlo.after (ops (F := F)) X (Proc.devRef .tc main_v76) = (Cert.Stages.nullOf (Cert.Stages.entropyOf (Cert.Stages.predOf (meanR X) (X (Proc.devRef .tc main_arg4)) (X (Proc.devRef .tc main_arg5))))) := by
  simp (disch := decide) only [after_cons, after_nil, nullary_result', unary_result', binary_result', ternary_result', reshape_result', nary3_result', nullary_result_ne', unary_result_ne', binary_result_ne', ternary_result_ne', reshape_result_ne', nary_result_ne']
  rfl

/-- After the 129 lines the first slice's buffer holds columns 0 to 3 of q scaled by 1 − null. -/
theorem at_v81 (X : Valuation τ sig (Elt F)) :
    StableHlo.after (ops (F := F)) X (Proc.devRef .tc main_v81)
      = extractStridedSlice S2048x4 ![0, 0] (mulf (Cert.Stages.qOf (senR X) (X (Proc.devRef .tc main_arg2)) (X (Proc.devRef .tc main_arg3)))
          (broadcastInDim S2048x9 ![0, 1] bcast_S2048x1_S2048x9_0_1
            (subf (broadcastInDim S2048x1 ![] bcast_S_S2048x1 (constant S_ .f32 0x3F800000#32)) (Cert.Stages.nullOf (Cert.Stages.entropyOf (Cert.Stages.predOf (meanR X) (X (Proc.devRef .tc main_arg4)) (X (Proc.devRef .tc main_arg5)))))))) slices_S2048x9_S2048x4_0_0 := by
  simp (disch := decide) only [after_cons, after_nil, nullary_result', unary_result', binary_result', ternary_result', reshape_result', nary3_result', nullary_result_ne', unary_result_ne', binary_result_ne', ternary_result_ne', reshape_result_ne', nary_result_ne']
  rfl

/-- After the 129 lines the second slice's buffer holds columns 4 to 8 of q scaled by 1 − null. -/
theorem at_v82 (X : Valuation τ sig (Elt F)) :
    StableHlo.after (ops (F := F)) X (Proc.devRef .tc main_v82)
      = extractStridedSlice S2048x5 ![0, 4] (mulf (Cert.Stages.qOf (senR X) (X (Proc.devRef .tc main_arg2)) (X (Proc.devRef .tc main_arg3)))
          (broadcastInDim S2048x9 ![0, 1] bcast_S2048x1_S2048x9_0_1
            (subf (broadcastInDim S2048x1 ![] bcast_S_S2048x1 (constant S_ .f32 0x3F800000#32)) (Cert.Stages.nullOf (Cert.Stages.entropyOf (Cert.Stages.predOf (meanR X) (X (Proc.devRef .tc main_arg4)) (X (Proc.devRef .tc main_arg5)))))))) slices_S2048x9_S2048x5_0_4 := by
  simp (disch := decide) only [after_cons, after_nil, nullary_result', unary_result', binary_result', ternary_result', reshape_result', nary3_result', nullary_result_ne', unary_result_ne', binary_result_ne', ternary_result_ne', reshape_result_ne', nary_result_ne']
  rfl

/-- A buffer the lines from the n-th on leave alone holds after the first n lines what it holds after all 129. -/
theorem front_eq (n : Nat) (X : Valuation τ sig (Elt F)) {b : DevRef τ sig}
    (h : StableHlo.after ((ops (F := F)).drop n) (StableHlo.after ((ops (F := F)).take n) X) b
      = StableHlo.after ((ops (F := F)).take n) X b) :
    StableHlo.after ((ops (F := F)).take n) X b = StableHlo.after (ops (F := F)) X b := by
  rw [after_split n X]
  exact h.symm

/-- The concatenation of three pieces depends on the pieces alone. -/
theorem concat3_congr {A A' : FVec F S2048x4 .f32} {B B' : FVec F S2048x1 .f32} {C C' : FVec F S2048x5 .f32}
    (hA : A = A') (hB : B = B') (hC : C = C') :
    concatenate S2048x10 1 [⟨S2048x4, A⟩, ⟨S2048x1, B⟩, ⟨S2048x5, C⟩] concatenates_S2048x4_S2048x1_S2048x5_S2048x10_d1
      = concatenate S2048x10 1 [⟨S2048x4, A'⟩, ⟨S2048x1, B'⟩, ⟨S2048x5, C'⟩] concatenates_S2048x4_S2048x1_S2048x5_S2048x10_d1 := by
  subst hA hB hC
  rfl

/-- After the 129 lines the second result's buffer holds q⁺ of the two summaries. -/
theorem after_v83 (X : Valuation τ sig (Elt F)) :
    StableHlo.after (ops (F := F)) X (Proc.devRef .tc main_v83)
      = Cert.Stages.qPlus (senR X) (meanR X) (X (Proc.devRef .tc main_arg2)) (X (Proc.devRef .tc main_arg3))
          (X (Proc.devRef .tc main_arg4)) (X (Proc.devRef .tc main_arg5)) := by
  rw [after_split 117 X, tail_v83]
  exact (concat3_congr
    ((front_eq 117 X (tail_keep _).1).trans (at_v81 X))
    ((front_eq 117 X (tail_keep _).2.1).trans (at_v76 X))
    ((front_eq 117 X (tail_keep _).2.2).trans (at_v82 X))).trans rfl

/-- After the 129 lines the first result's buffer holds p of the two summaries. -/
theorem after_v92 (X : Valuation τ sig (Elt F)) :
    StableHlo.after (ops (F := F)) X (Proc.devRef .tc main_v92)
      = Cert.Stages.pRes (senR X) (meanR X) (X (Proc.devRef .tc main_arg2)) (X (Proc.devRef .tc main_arg3))
          (X (Proc.devRef .tc main_arg4)) (X (Proc.devRef .tc main_arg5)) := by
  rw [after_split 118 X, (tail_v92 _).1, front_eq 118 X (tail_v92 _).2, after_v83]
  rfl

/-- The 129 lines write none of the six arguments. -/
theorem args_keep (V : Valuation τ sig (Elt F)) :
    StableHlo.after (ops (F := F)) V (Proc.devRef .tc main_arg0) = V (Proc.devRef .tc main_arg0)
    ∧ StableHlo.after (ops (F := F)) V (Proc.devRef .tc main_arg1) = V (Proc.devRef .tc main_arg1)
    ∧ StableHlo.after (ops (F := F)) V (Proc.devRef .tc main_arg2) = V (Proc.devRef .tc main_arg2)
    ∧ StableHlo.after (ops (F := F)) V (Proc.devRef .tc main_arg3) = V (Proc.devRef .tc main_arg3)
    ∧ StableHlo.after (ops (F := F)) V (Proc.devRef .tc main_arg4) = V (Proc.devRef .tc main_arg4)
    ∧ StableHlo.after (ops (F := F)) V (Proc.devRef .tc main_arg5) = V (Proc.devRef .tc main_arg5) := by
  simp (disch := decide) only [after_cons, after_nil, nullary_result_ne', unary_result_ne', binary_result_ne', ternary_result_ne', reshape_result_ne', nary_result_ne']
  exact ⟨trivial, trivial, trivial, trivial, trivial, trivial⟩

/-- Every weakly fair execution of the reference terminates with its two results at p and q⁺ of the summaries of its
    arguments, and its six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
          = Cert.Stages.pRes (senR (launchContents m c)) (meanR (launchContents m c)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v83)
          = Cert.Stages.qPlus (senR (launchContents m c)) (meanR (launchContents m c)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono
    (fun _ h c => ⟨(h c main_v92).trans (after_v92 _), (h c main_v83).trans (after_v83 _),
      (h c main_arg0).trans (args_keep _).1, (h c main_arg1).trans (args_keep _).2.1,
      (h c main_arg2).trans (args_keep _).2.2.1, (h c main_arg3).trans (args_keep _).2.2.2.1,
      (h c main_arg4).trans (args_keep _).2.2.2.2.1, (h c main_arg5).trans (args_keep _).2.2.2.2.2⟩)
    (run_seq scopedRefs_eq scopedSems_eq defs main (fun _ => ops) main_eq (fun _ => ops_sub) m ρ)

end Cert.ReferenceIdeal.HandRun

end
-- ==== Proof.lean ====
/-
  A text-classification head: a Pallas kernel against its jnp reference, equal on the extended reals.

  Both programs look every token's embedding up in a table, score it against nine filters, weight each token by its
  largest clipped score, average the embeddings of each batch row over its 128 positions — once weighted (sen), once
  plainly (mean) — and then apply one and the same chain of softmaxes, an entropy, a threshold and two normalisations to
  sen and mean to produce p and q⁺.  The kernel's program computes sen and mean in one pallas_call, sixty-four batch rows
  per grid point, from a table narrowed to a shorter float format; the reference computes them on whole arrays with
  host operations.  On the extended reals a change of float format is the identity and a sum or a maximum does not
  depend on how its terms are grouped into blocks, so both compute the specification's sen and mean of the same
  embeddings (Proof/Spec.lean); the common chain is carried as six functions that are never opened (Proof/Stages.lean).

  The three frames: the kernel's two programs run the call as a pipeline between their host lines (Proof/KernelRegion.lean,
  Proof/KernelIdealRegion.lean); the reference is host lines only, and its frame is its run with the results dropped.
  The idealized kernel is the kernel's own text read on the extended reals: nothing was rewritten, nothing is to preserve.
-/
import proofs.«160721_j61581241090537_1_alg».proof.Defs
import proofs.«160721_j61581241090537_1_alg».proof.Proof.Gen.Kernel
import proofs.«160721_j61581241090537_1_alg».proof.Proof.Gen.KernelIdeal
import proofs.«160721_j61581241090537_1_alg».proof.Proof.Gen.ReferenceIdeal
import proofs.«160721_j61581241090537_1_alg».proof.Proof.Gen.Pre_finite_inputs
import proofs.«160721_j61581241090537_1_alg».proof.Proof.KernelRegion
import proofs.«160721_j61581241090537_1_alg».proof.Proof.KernelIdealRegion
import proofs.«160721_j61581241090537_1_alg».proof.Proof.KernelIdealValue
import proofs.«160721_j61581241090537_1_alg».proof.Proof.ReferenceFront
import proofs.«160721_j61581241090537_1_alg».proof.Proof.ReferenceRun
import proofs.«160721_j61581241090537_1_alg».proof.Proof.Stages
import proofs.«160721_j61581241090537_1_alg».proof.Proof.Spec
import Idealize.ShloMosaic.Adequacy
import Idealize.ShloMosaic.Init

set_option maxRecDepth 16384

noncomputable section

namespace Cert.Proof

open Idealize.ShloMosaic Idealize.ShloMosaic.TcCoe Idealize.SL.Sem

/-- The word-level kernel's program runs to its end and leaves its arguments as launched. -/
theorem frame_kernel : Cert.frame_Kernel := fun m ρ _ => Cert.Kernel.Region.frame m ρ

/-- So does the kernel's program read on the extended reals. -/
theorem frame_kernelIdeal : Cert.frame_KernelIdeal := fun m ρ _ => Cert.KernelIdeal.Region.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.HandRun.run (F := Ideal) m ρ)

/-- Nothing was rewritten when the kernel's program was printed for the extended reals. -/
theorem preserves : Cert.preserves_Kernel_KernelIdeal := trivial

/-- On the extended reals the kernel's embeddings, looked up in the narrowed table, are the reference's, looked up in
    the table itself: narrowing is the identity there and the two look-ups are one operation on one index. -/
theorem emb_eq (tbl : Cert.KernelIdeal.S50000x300.Idx → EReal) (txt : Cert.KernelIdeal.S128x2048.Idx → BitVec 32) :
    (Cert.KernelIdeal.Entry.embOf (F := Ideal) tbl txt : Cert.KernelIdeal.S2048x128x300.Idx → EReal)
      = Cert.ReferenceIdeal.Front.embOf (F := Ideal) tbl txt := rfl

/-- From arguments that agree, both programs end with p and q⁺ of the specification's two summaries of those arguments. -/
theorem algebraic : Cert.algebraic_KernelIdeal_ReferenceIdeal := by
  intro m ρ m' ρ' _ hagree
  refine ⟨_, _, Cert.KernelIdeal.ValueRun.run m ρ, ?_⟩
  refine (θ_run Cert.ReferenceIdeal.defs _ _).mono (fun _ h c => ⟨(h c).1.trans ?_, (h c).2.1.trans ?_, (h c).2.2⟩)
    (Cert.ReferenceIdeal.HandRun.run (F := Ideal) m' ρ')
  all_goals
    obtain ⟨h0, h1, h2, h3, h4, h5⟩ := hagree c
    have hs : Cert.ReferenceIdeal.HandRun.senR (F := Ideal) (StableHlo.launchContents m' c) = Cert.KernelIdeal.ValueRun.senK m c := by
      show Cert.ReferenceIdeal.Front.senOf (F := Ideal)
          (Cert.ReferenceIdeal.Front.embOf
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg0)))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) = _
      rw [h0, h1, h2, h3, Cert.ReferenceIdeal.Front.senOf_eq, ← emb_eq]
    have hm : Cert.ReferenceIdeal.HandRun.meanR (F := Ideal) (StableHlo.launchContents m' c) = Cert.KernelIdeal.ValueRun.meanK m c := by
      show Cert.ReferenceIdeal.Front.meanOf (F := Ideal)
          (Cert.ReferenceIdeal.Front.embOf
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg0))) = _
      rw [h0, h1, Cert.ReferenceIdeal.Front.meanOf_eq, ← emb_eq]
    rw [hs, hm, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
